-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192x256 : Shape := ⟨3, ![1, 8192, 256]⟩
abbrev S1x8192x8192 : Shape := ⟨3, ![1, 8192, 8192]⟩
abbrev S256x256 : Shape := ⟨2, ![256, 256]⟩
abbrev S256 : Shape := ⟨1, ![256]⟩
abbrev S1 : Shape := ⟨1, ![1]⟩
abbrev S_ : Shape := ⟨0, ![]⟩

class Facts : Prop where
  bcast_S_S1x8192x256 : S_.BroadcastsInDim S1x8192x256 (![] : Fin 0 → Fin S1x8192x256.rank)
  reducesTo_S1x8192x256_S_d0_1_2 : S1x8192x256.ReducesTo [0, 1, 2] S_
  h_S_ : 0 < S_.numel
  bcast_S_S1x8192x8192 : S_.BroadcastsInDim S1x8192x8192 (![] : Fin 0 → Fin S1x8192x8192.rank)
  reducesTo_S1x8192x8192_S_d0_1_2 : S1x8192x8192.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S1x8192x256 .f32) (main_arg1 : FVec F S1x8192x8192 .f32) (main_arg2 : FVec F S256x256 .f32) (main_arg3 : FVec F S256 .f32) (main_arg4 : FVec F S1 .f32) : IVec S_ 1 :=
  let main_v0 : FVec F S1x8192x256 .f32 := Host.absf main_arg0
  let main_cst : FVec F S_ .f32 := constant S_ .f32 0x7F800000#32
  let main_v1 : FVec F S1x8192x256 .f32 := broadcastInDim S1x8192x256 ![] bcast_S_S1x8192x256 main_cst
  let main_v2 : IVec S1x8192x256 1 := cmpf .olt main_v0 main_v1
  let main_c : IVec S_ 1 := constantI S_ 1 1#1
  let main_v3 : IVec S_ 1 := (fun x v => Host.reduce IntOp.andi x v reducesTo_S1x8192x256_S_d0_1_2 h_S_) main_v2 main_c
  let main_v4 : FVec F S1x8192x8192 .f32 := Host.absf main_arg1
  let main_cst_0 : FVec F S_ .f32 := constant S_ .f32 0x7F800000#32
  let main_v5 : FVec F S1x8192x8192 .f32 := broadcastInDim S1x8192x8192 ![] bcast_S_S1x8192x8192 main_cst_0
  let main_v6 : IVec S1x8192x8192 1 := cmpf .olt main_v4 main_v5
  let main_c_1 : IVec S_ 1 := constantI S_ 1 1#1
  let main_v7 : IVec S_ 1 := (fun x v => Host.reduce IntOp.andi x v reducesTo_S1x8192x8192_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S1x8192x256 : Shape := ⟨3, ![1, 8192, 256]⟩
abbrev S1x8192x8192 : Shape := ⟨3, ![1, 8192, 8192]⟩
abbrev S256x256 : Shape := ⟨2, ![256, 256]⟩
abbrev S256 : Shape := ⟨1, ![256]⟩
abbrev S1 : Shape := ⟨1, ![1]⟩
abbrev S8192x256 : Shape := ⟨2, ![8192, 256]⟩
abbrev S8192x8192 : Shape := ⟨2, ![8192, 8192]⟩
abbrev S1x256 : Shape := ⟨2, ![1, 256]⟩
abbrev S1x1 : Shape := ⟨2, ![1, 1]⟩
abbrev S2048x256 : Shape := ⟨2, ![2048, 256]⟩
abbrev S1024x2048 : Shape := ⟨2, ![1024, 2048]⟩
abbrev S1024x256 : Shape := ⟨2, ![1024, 256]⟩

abbrev nBuf : Space → Nat
  | .hbm => 11
  | .vmem => 11
  | .smem => 0
  | _ => 0

abbrev bufTy : (tb : Table) → Fin (tcTables nBuf tb) → BufTy
  | .hbm, ⟨0, _⟩ => ⟨S1x8192x256, .f32⟩
  | .hbm, ⟨1, _⟩ => ⟨S1x8192x8192, .f32⟩
  | .hbm, ⟨2, _⟩ => ⟨S256x256, .f32⟩
  | .hbm, ⟨3, _⟩ => ⟨S256, .f32⟩
  | .hbm, ⟨4, _⟩ => ⟨S1, .f32⟩
  | .hbm, ⟨5, _⟩ => ⟨S8192x256, .f32⟩
  | .hbm, ⟨6, _⟩ => ⟨S8192x8192, .f32⟩
  | .hbm, ⟨7, _⟩ => ⟨S1x256, .f32⟩
  | .hbm, ⟨8, _⟩ => ⟨S1x1, .f32⟩
  | .hbm, ⟨9, _⟩ => ⟨S8192x256, .f32⟩
  | .hbm, ⟨10, _⟩ => ⟨S1x8192x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S1x256, .f32⟩
  | .local _ .vmem, ⟨4, _⟩ => ⟨S1x1, .f32⟩
  | .local _ .vmem, ⟨5, _⟩ => ⟨S1024x2048, .f32⟩
  | .local _ .vmem, ⟨6, _⟩ => ⟨S1024x2048, .f32⟩
  | .local _ .vmem, ⟨7, _⟩ => ⟨S1024x256, .f32⟩
  | .local _ .vmem, ⟨8, _⟩ => ⟨S1024x256, .f32⟩
  | .local _ .vmem, ⟨9, _⟩ => ⟨S8192x256, .f32⟩
  | .local _ .vmem, ⟨10, _⟩ => ⟨S1024x256, .f32⟩
  | _, _ => ⟨S1x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c2048_i32_15 : BitVec 32 := 2048#32
  let v24 : BitVec 32 := Scalar.muli arg1 c2048_i32_15
  let v25 : Index := Scalar.indexCast v24
  let c0_16 : Index := 0#32
  ![v25.toNat, 0]
def k0_off2 (i : grid0.Coords) : Fin 2 → Nat :=
  let arg1 : BitVec 32 := BitVec.ofNat 32 (i 1).val
  let c2048_i32 : BitVec 32 := 2048#32
  let v5 : BitVec 32 := Scalar.muli arg1 c2048_i32
  let v6 : Index := Scalar.indexCast v5
  let c0_2 : Index := 0#32
  ![v6.toNat, 0]
def k0_cond4 (i : grid0.Coords) : BitVec 1 :=
  let arg1 : BitVec 32 := BitVec.ofNat 32 (i 1).val
  let c3_i32_8 : BitVec 32 := 3#32
  let v17 : BitVec 1 := Scalar.cmpi .eq arg1 c3_i32_8
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S1x8192x256_S8192x256 : S1x8192x256.ShapeCasts S8192x256
  shapeCasts_S1x8192x8192_S8192x8192 : S1x8192x8192.ShapeCasts S8192x8192
  shapeCasts_S256_S1x256 : S256.ShapeCasts S1x256
  shapeCasts_S1_S1x1 : S1.ShapeCasts S1x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S8192x256_S1x8192x256 : S8192x256.ShapeCasts S1x8192x256
  dot_S2048x256_S256x256_S2048x256_1_1_0_0_n_n_wf : DotDims.WF S2048x256 S256x256 S2048x256 [1] [1] [0] [0] [] []
  dot_S1024x2048_S2048x256_S1024x256_1_0_0_1_n_n_wf : DotDims.WF S1024x2048 S2048x256 S1024x256 [1] [0] [0] [1] [] []
  hrank0 : 0 < grid0.rank
  k0_off1_inb : ∀ i : grid0.Coords, ∀ (k0_h1 : k0_cond1 i = 1#1), ∀ a, (k0_off1 i) a + S2048x256.size a ≤ S8192x256.size a
  k0_off2_inb : ∀ i : grid0.Coords, ∀ a, (k0_off2 i) a + S2048x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S8192x8192.size a
  hwx0_4 : ∀ i : grid0.Coords, EltTy.bits .f32 = 32 ∨ (Rect.block (s := S8192x8192) S1024x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x256.size a
  hwx0_5 : ∀ i : grid0.Coords, EltTy.bits .f32 = 32 ∨ (Rect.block (s := S8192x256) S1024x256.size (cc0_transform_5 i) (hinb0_5 i)).WholeWords (EltTy.packing .f32)

variable [Facts₀]

def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond4 i == 1#1) | ⟨_ + 6, h⟩ => absurd h (Nat.not_lt.2 (Nat.le_add_left _ _))

class Facts : Prop extends Facts₀ where

variable [Facts]
-- ==== ReferenceIdeal.lean ====
abbrev S1x8192x256 : Shape := ⟨3, ![1, 8192, 256]⟩
abbrev S1x8192x8192 : Shape := ⟨3, ![1, 8192, 8192]⟩
abbrev S256x256 : Shape := ⟨2, ![256, 256]⟩
abbrev S256 : Shape := ⟨1, ![256]⟩
abbrev S1 : Shape := ⟨1, ![1]⟩
abbrev S1x1x256 : Shape := ⟨3, ![1, 1, 256]⟩
abbrev S_ : Shape := ⟨0, ![]⟩
abbrev S1x1x1 : Shape := ⟨3, ![1, 1, 1]⟩

abbrev nBuf : Space → Nat
  | .hbm => 17
  | .vmem => 0
  | .smem => 0
  | _ => 0

abbrev bufTy : (tb : Table) → Fin (tcTables nBuf tb) → BufTy
  | .hbm, ⟨0, _⟩ => ⟨S1x8192x256, .f32⟩
  | .hbm, ⟨1, _⟩ => ⟨S1x8192x8192, .f32⟩
  | .hbm, ⟨2, _⟩ => ⟨S256x256, .f32⟩
  | .hbm, ⟨3, _⟩ => ⟨S256, .f32⟩
  | .hbm, ⟨4, _⟩ => ⟨S1, .f32⟩
  | .hbm, ⟨5, _⟩ => ⟨S1x8192x256, .f32⟩
  | .hbm, ⟨6, _⟩ => ⟨S1x8192x256, .f32⟩
  | .hbm, ⟨7, _⟩ => ⟨S1x1x256, .f32⟩
  | .hbm, ⟨8, _⟩ => ⟨S1x8192x256, .f32⟩
  | .hbm, ⟨9, _⟩ => ⟨S1x8192x256, .f32⟩
  | .hbm, ⟨10, _⟩ => ⟨S_, .f32⟩
  | .hbm, ⟨11, _⟩ => ⟨S1x8192x256, .f32⟩
  | .hbm, ⟨12, _⟩ => ⟨S1x8192x256, .i1⟩
  | .hbm, ⟨13, _⟩ => ⟨S1x1x1, .f32⟩
  | .hbm, ⟨14, _⟩ => ⟨S1x8192x256, .f32⟩
  | .hbm, ⟨15, _⟩ => ⟨S1x8192x256, .f32⟩
  | .hbm, ⟨16, _⟩ => ⟨S1x8192x256, .f32⟩
  | _, _ => ⟨S1x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S1x8192x256_0_1_2 : S1x1x256.BroadcastsInDim S1x8192x256 (![0, 1, 2] : Fin 3 → Fin S1x8192x256.rank)
  bcast_S_S1x8192x256 : S_.BroadcastsInDim S1x8192x256 (![] : Fin 0 → Fin S1x8192x256.rank)
  bcast_S1_S1x1x1_2 : S1.BroadcastsInDim S1x1x1 (![2] : Fin 1 → Fin S1x1x1.rank)
  bcast_S1x1x1_S1x8192x256_0_1_2 : S1x1x1.BroadcastsInDim S1x8192x256 (![0, 1, 2] : Fin 3 → Fin S1x8192x256.rank)
  dot_S1x8192x256_S256x256_S1x8192x256_2_1_01_0_n_n_wf : DotDims.WF S1x8192x256 S256x256 S1x8192x256 [2] [1] [0, 1] [0] [] []
  dot_S1x8192x8192_S1x8192x256_S1x8192x256_2_1_1_2_0_0_wf : DotDims.WF S1x8192x8192 S1x8192x256 S1x8192x256 [2] [1] [1] [2] [0] [0]

variable [Facts₀]

def dot_S1x8192x256_S256x256_S1x8192x256_2_1_01_0_n_n : DotDims S1x8192x256 S256x256 S1x8192x256 where
  lhsContracting := [2]
  rhsContracting := [1]
  lhsNonContracting := [0, 1]
  rhsNonContracting := [0]
  lhsBatch := []
  rhsBatch := []
  wf := dot_S1x8192x256_S256x256_S1x8192x256_2_1_01_0_n_n_wf
def dot_S1x8192x8192_S1x8192x256_S1x8192x256_2_1_1_2_0_0 : DotDims S1x8192x8192 S1x8192x256 S1x8192x256 where
  lhsContracting := [2]
  rhsContracting := [1]
  lhsNonContracting := [1]
  rhsNonContracting := [2]
  lhsBatch := [0]
  rhsBatch := [0]
  wf := dot_S1x8192x8192_S1x8192x256_S1x8192x256_2_1_1_2_0_0_wf

class Facts : Prop extends Facts₀ where

variable [Facts]
-- ==== Proof.KernelBody.Shared.lean ====
/-
  What the body's runs and the proof data of the fused graph-convolution kernel share. The kernel visits the grid
  (i, k), i < 8 row blocks of the adjacency, k < 4 column chunks of 2048: point t = 4 i + k. Its four branches are
  on the coordinates alone — the feature chunk is computed and kept only on the first row block (i = 0, t < 4), the
  accumulator is reset on the first chunk (k = 0), carried on all but the last (k < 3) and the output block is formed
  on the last (k = 3) — so each is decided over the 32 points in closed form. The output window is idle off the last
  chunk and written back on it. The two scratch buffers (the kept features, 8192 x 256, and the accumulator,
  1024 x 256) are whole scoped buffers of the kernel's own.
-/
import proofs.«166933_g27788438405845_cont_9to1_712_7_alg».proof.Proof.Gen.Kernel.Launch
import proofs.«166933_g27788438405845_cont_9to1_712_7_alg».proof.Proof.Gen.Kernel.Skeleton
import proofs.«166933_g27788438405845_cont_9to1_712_7_alg».proof.Proof.Gen.Kernel.Points
import proofs.«166933_g27788438405845_cont_9to1_712_7_alg».proof.Proof.Gen.Kernel.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four branch conditions, as the body spells them, and where they hold -/

/-- First row block: the feature chunk is computed and stored. -/
abbrev cond1 (i : grid0.Coords) : Prop := k0_cond1 i = 1#1
/-- First column chunk: the accumulator is reset. -/
abbrev cond2 (i : grid0.Coords) : Prop :=
  (Scalar.cmpi .ne (Scalar.extui (Scalar.cmpi .eq (BitVec.ofNat 32 (i 1).val) 0#32)) 0#32) = 1#1
/-- Not the last column chunk: the accumulator is carried. -/
abbrev cond3 (i : grid0.Coords) : Prop :=
  (Scalar.cmpi .ne (Scalar.extui (Scalar.cmpi .slt (BitVec.ofNat 32 (i 1).val) 3#32)) 0#32) = 1#1
/-- Last column chunk: the output block is formed. -/
abbrev cond4 (i : grid0.Coords) : Prop := k0_cond4 i = 1#1

theorem hcond1 : ∀ t : Fin cfg0.N, cond1 (grid0.coords t) ↔ t.val < 4 :=
  (by decide +kernel : ∀ t : Fin grid0.N, cond1 (grid0.coords t) ↔ t.val < 4)
theorem hcond2 : ∀ t : Fin cfg0.N, cond2 (grid0.coords t) ↔ t.val % 4 = 0 :=
  (by decide +kernel : ∀ t : Fin grid0.N, cond2 (grid0.coords t) ↔ t.val % 4 = 0)
theorem hcond3 : ∀ t : Fin cfg0.N, cond3 (grid0.coords t) ↔ ¬ t.val % 4 = 3 :=
  (by decide +kernel : ∀ t : Fin grid0.N, cond3 (grid0.coords t) ↔ ¬ t.val % 4 = 3)
theorem hcond4 : ∀ t : Fin cfg0.N, cond4 (grid0.coords t) ↔ t.val % 4 = 3 :=
  (by decide +kernel : ∀ t : Fin grid0.N, cond4 (grid0.coords t) ↔ t.val % 4 = 3)

/-- The column chunk of point t is t mod 4. -/
theorem coord1 : ∀ t : Fin cfg0.N, (grid0.coords t 1).val = t.val % 4 :=
  (by decide +kernel : ∀ t : Fin grid0.N, (grid0.coords t 1).val = t.val % 4)
/-- The row block of point t is t div 4. -/
theorem coord0 : ∀ t : Fin cfg0.N, (grid0.coords t 0).val = t.val / 4 :=
  (by decide +kernel : ∀ t : Fin grid0.N, (grid0.coords t 0).val = t.val / 4)

/-! ## Where the windows are idle, and where the output is written back -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
/-- On the last chunk the output window is live: the body stores its whole block. -/
theorem liveAt5 : ∀ t : Fin cfg0.N, cond4 (grid0.coords t) → cfg0.idle 5 (grid0.coords t) = false := by decide +kernel
/-- Off the last chunk it is idle and not written back. -/
theorem idleAt5 : ∀ t : Fin cfg0.N, ¬cond4 (grid0.coords t) → cfg0.idle 5 (grid0.coords t) = true := by decide +kernel
theorem noFlush5 : ∀ t : Fin cfg0.N, ¬cond4 (grid0.coords t) → (cfg0.win 5).flush t = false := by decide +kernel

/-! ## The memrefs the body is called with -/

abbrev ms0 (t : Fin cfg0.N) : Memref sig .tc .vmem S2048x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x256 .f32 := win0_5.stage (cfg0.slots t 5)
abbrev hs5 (t : Fin cfg0.N) : (ms5 t).IsWhole := hstage0_5 ((cfg0.slots t 5).cast nbuf0_5)
/-- The kept features. -/
abbrev scM0 : Memref sig .tc .vmem S8192x256 .f32 := Memref.whole cc0_scratch0
/-- The accumulator. -/
abbrev scM1 : Memref sig .tc .vmem S1024x256 .f32 := Memref.whole cc0_scratch1
abbrev hsc0 : (scM0).IsWhole := Memref.isWhole_whole _
abbrev hsc1 : (scM1).IsWhole := Memref.isWhole_whole _

/-- The class's invariant opened: both scratch buffers owned whole at some contents, and the generator register. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.Kernel.Body

end
-- ==== Proof.KernelBody.State.lean ====
/-
  What the two scratch buffers and the output block hold point by point, as pure values of the windows' blocks, the
  region's invariant and the pipeline's proof data.
  The kernel visits point t = 4 i + k (row block i of the adjacency, column chunk k). On the first row block (t < 4) it
  computes the feature chunk of the sequence block t against the weights (`ftsC t`) and stores it into rows
  [2048 t, 2048 t + 2048) of the kept features; that chunk is never written again. At every point it multiplies the
  adjacency block by the kept chunk k = t mod 4 (`ftsAt t`), adds it to the accumulator (zero on the first chunk) and,
  on all but the last chunk, stores the sum back (`accAfter`); on the last chunk it adds the bias, applies the leaky
  rectifier and stores the output block (`outAt`).
  The kept features are stored band by band, so after point n - 1 only the bands of the chunks computed so far are
  known (`KeptOK n`); the rest of that buffer holds whatever it held when the region was entered.
-/
import proofs.«166933_g27788438405845_cont_9to1_712_7_alg».proof.Proof.KernelBody.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks at their literal types -/

/-- The sequence block the point is handed: rows [2048 t, 2048 t + 2048) on the first row block. -/
abbrev seqB (c : Dev nD) (t : Fin cfg0.N) : Vec F S2048x256 .f32 := iblk m c 0 t
/-- The weights (the same block at every point). -/
abbrev wB (c : Dev nD) (t : Fin cfg0.N) : Vec F S256x256 .f32 := iblk m c 1 t
/-- The bias row. -/
abbrev biasB (c : Dev nD) (t : Fin cfg0.N) : Vec F S1x256 .f32 := iblk m c 2 t
/-- The slope. -/
abbrev aB (c : Dev nD) (t : Fin cfg0.N) : Vec F S1x1 .f32 := iblk m c 3 t
/-- The adjacency block (i, k). -/
abbrev adjB (c : Dev nD) (t : Fin cfg0.N) : Vec F S1024x2048 .f32 := iblk m c 4 t

/-! ## The kept features -/

theorem N32 : cfg0.N = 32 := N_0

/-- The point of the first row block that has point t's column chunk. -/
def chunkPt (t : Fin cfg0.N) : Fin cfg0.N := ⟨t.val % 4, by have h : cfg0.N = 32 := N_0; omega⟩

theorem chunkPt_val (t : Fin cfg0.N) : (chunkPt t).val = t.val % 4 := rfl
theorem chunkPt_of_lt (t : Fin cfg0.N) (h : t.val < 4) : chunkPt t = t := Fin.ext (Nat.mod_eq_of_lt h)

/-- The feature chunk computed at point t of the first row block: the sequence block against the weights. -/
def ftsC (c : Dev nD) (t : Fin cfg0.N) : Vec F S2048x256 .f32 := k0_pay1 (seqB m c t) (wB m c t)

/-- The feature chunk point t multiplies the adjacency block by: the one computed at the first row block's point of
    the same column chunk. -/
def ftsAt (c : Dev nD) (t : Fin cfg0.N) : Vec F S2048x256 .f32 := ftsC m c (chunkPt t)

theorem ftsAt_of_lt (c : Dev nD) (t : Fin cfg0.N) (h : t.val < 4) : ftsAt m c t = ftsC m c t := by
  unfold ftsAt; rw [chunkPt_of_lt t h]

/-- The band of the kept features that holds the chunk of a point with coordinates i: rows [2048 k, 2048 k + 2048). -/
abbrev crect (i : grid0.Coords) : Rect S8192x256 := Rect.unit (s := S8192x256) (k0_off2 i) S2048x256.size (k0_off2_inb i)

/-- After the points below n, the kept features S hold, in the band of every chunk computed so far, that chunk. -/
def KeptOK (c : Dev nD) (n : ℕ) (S : Vec F S8192x256 .f32) : Prop :=
  ∀ t' : Fin cfg0.N, t'.val < n → t'.val < 4 → View.ld S (crect (grid0.coords t')) = ftsC m c t'

/-! ## The accumulator and the output block -/

/-- What the accumulator holds after point n: the adjacency block times the kept chunk, over zero on a first chunk
    and over what the point before left on a middle one; a last chunk leaves it as it was. -/
def accAfter (c : Dev nD) : (n : ℕ) → n < cfg0.N → Vec F S1024x256 .f32
  | 0, h => k0_pay4 (adjB m c ⟨0, h⟩) (ftsAt m c ⟨0, h⟩) (k0_pay2 (F := F))
  | n + 1, h =>
    if (n + 1) % 4 = 0 then k0_pay4 (adjB m c ⟨n + 1, h⟩) (ftsAt m c ⟨n + 1, h⟩) (k0_pay2 (F := F))
    else if (n + 1) % 4 = 3 then accAfter c n (Nat.lt_of_succ_lt h)
    else k0_pay4 (adjB m c ⟨n + 1, h⟩) (ftsAt m c ⟨n + 1, h⟩) (accAfter c n (Nat.lt_of_succ_lt h))

theorem accAfter_first (c : Dev nD) (t : Fin cfg0.N) (h0 : t.val % 4 = 0) :
    accAfter m c t.val t.isLt = k0_pay4 (adjB m c t) (ftsAt m c t) (k0_pay2 (F := F)) := by
  obtain ⟨n, hn⟩ := t
  cases n with
  | zero => rfl
  | succ n => exact (if_pos h0).trans rfl

theorem accAfter_mid (c : Dev nD) (t : Fin cfg0.N) (h0 : ¬t.val % 4 = 0) (h3 : ¬t.val % 4 = 3) :
    accAfter m c t.val t.isLt
      = k0_pay4 (adjB m c t) (ftsAt m c t) (accAfter m c (t.val - 1) (Nat.lt_of_le_of_lt (Nat.sub_le _ _) t.isLt)) := by
  obtain ⟨n, hn⟩ := t
  cases n with
  | zero => exact absurd (Nat.zero_mod _) h0
  | succ n => exact (if_neg h0).trans ((if_neg h3).trans rfl)

theorem accAfter_last (c : Dev nD) (t : Fin cfg0.N) (h3 : t.val % 4 = 3) :
    accAfter m c t.val t.isLt = accAfter m c (t.val - 1) (Nat.lt_of_le_of_lt (Nat.sub_le _ _) t.isLt) := by
  obtain ⟨n, hn⟩ := t
  cases n with
  | zero => exact absurd h3 (by dsimp only; omega)
  | succ n => exact (if_neg (by dsimp only at h3 ⊢; omega)).trans ((if_pos h3).trans rfl)

/-- The accumulator X is what the point before n left (nothing is said before the first point). -/
def AccOK (c : Dev nD) (n : ℕ) (X : Vec F S1024x256 .f32) : Prop :=
  ∀ (h : n ≠ 0) (h' : n - 1 < cfg0.N), X = accAfter m c (n - 1) h'

/-- The output block a last-chunk point forms: the accumulator the point before left plus this chunk's product, plus
    the bias, through the leaky rectifier. (Off the last chunk nothing consults it: the window is idle there.) -/
def outAt (c : Dev nD) (t : Fin cfg0.N) : Vec F S1024x256 .f32 :=
  k0_pay5 (adjB m c t) (ftsAt m c t) (accAfter m c (t.val - 1) (Nat.lt_of_le_of_lt (Nat.sub_le _ _) t.isLt)) (biasB m c t) (aB m c t)

/-! ## The region's invariant and the proof data -/

/-- Before point n: the kept features at some contents whose computed bands are known, the accumulator at what the
    point before left (at anything before the first point), the generator register at some state. -/
def PhiS (c : Dev nD) (n : ℕ) : sProp 𝕄 :=
  iprop(iprop((∃ S, ⌜KeptOK m c n S⌝ ∗ owns (c : Thread nD τ) scM0 fullShare S)
      ∗ (∃ X, ⌜AccOK m c n X⌝ ∗ owns (c : Thread nD τ) scM1 fullShare X)) ∗ (∃ r, prngReg c r))

/-- The proof data of the one pipeline on core c: the arrays as the region finds them; after the body each input's
    buffer at its block and the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

theorem Phi_eq (c : Dev nD) (t : Fin (cfg0.N + 1)) : (dats m 0 c).Φ t = PhiS m c t.val := by dsimp only [dats]

end Cert.Kernel.Body

end
-- ==== Proof.KernelBody.RunA.lean ====
/-
  The body's run on the first row block at the first column chunk (point 0): the feature chunk 0 is computed from the
  sequence block and the weights and stored into the kept features, read back, multiplied by the adjacency block; the
  accumulator is reset to zero, read back, and the sum stored.
  The pieces each buffer ends with are found by the run.
-/
import proofs.«166933_g27788438405845_cont_9to1_712_7_alg».proof.Proof.KernelBody.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First row block, first chunk: features' chunk stored; accumulator reset then carried; output handed back untouched. -/
noncomputable def runA (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S1024x2048 .f32) (harg6 : arg6.IsWhole) (arg7 : Memref sig .tc .vmem S1024x256 .f32) (harg7 : arg7.IsWhole) (arg8 : Memref sig .tc .vmem S8192x256 .f32) (harg8 : arg8.IsWhole) (arg9 : Memref sig .tc .vmem S1024x256 .f32) (harg9 : arg9.IsWhole) (hc1 : cond1 i) (hc2 : cond2 i) (hc3 : cond3 i) (hc4 : ¬cond4 i)
    (x0 : Vec F S2048x256 .f32) (x1 : Vec F S256x256 .f32) (x2 : Vec F S1x256 .f32) (x3 : Vec F S1x1 .f32) (x4 : Vec F S1024x2048 .f32) (xs0 : Vec F S8192x256 .f32) (xs1 : Vec F S1024x256 .f32) :
    Σ' (LS0 : List (View.Piece (Elt F) S8192x256 .f32)), { LS1 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9) K } := by
  refine ⟨?_, ?_, fun xi5 E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexact HS0
    iexact HS1

end Cert.Kernel.Body

end
-- ==== Proof.KernelBody.RunB.lean ====
/-
  The body's run on the first row block at a middle column chunk (points 1, 2): the feature chunk is computed and
  stored into the kept features, read back, multiplied by the adjacency block and added to the carried accumulator.
  The pieces each buffer ends with are found by the run.
-/
import proofs.«166933_g27788438405845_cont_9to1_712_7_alg».proof.Proof.KernelBody.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First row block, middle chunk: features' chunk stored; accumulator carried; output handed back untouched. -/
noncomputable def runB (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S1024x2048 .f32) (harg6 : arg6.IsWhole) (arg7 : Memref sig .tc .vmem S1024x256 .f32) (harg7 : arg7.IsWhole) (arg8 : Memref sig .tc .vmem S8192x256 .f32) (harg8 : arg8.IsWhole) (arg9 : Memref sig .tc .vmem S1024x256 .f32) (harg9 : arg9.IsWhole) (hc1 : cond1 i) (hc2 : ¬cond2 i) (hc3 : cond3 i) (hc4 : ¬cond4 i)
    (x0 : Vec F S2048x256 .f32) (x1 : Vec F S256x256 .f32) (x2 : Vec F S1x256 .f32) (x3 : Vec F S1x1 .f32) (x4 : Vec F S1024x2048 .f32) (xs0 : Vec F S8192x256 .f32) (xs1 : Vec F S1024x256 .f32) :
    Σ' (LS0 : List (View.Piece (Elt F) S8192x256 .f32)), { LS1 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9) K } := by
  refine ⟨?_, ?_, fun xi5 E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexact HS0
    iexact HS1

end Cert.Kernel.Body

end
-- ==== Proof.KernelBody.RunC.lean ====
/-
  The body's run on the first row block at the last column chunk (point 3): the last feature chunk is computed and
  stored, read back, multiplied by the adjacency block, added to the accumulator; bias is added and the leaky
  rectifier applied, and the result stored whole into the output block. The accumulator is not stored.
  The pieces each buffer ends with are found by the run.
-/
import proofs.«166933_g27788438405845_cont_9to1_712_7_alg».proof.Proof.KernelBody.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First row block, last chunk: features' chunk stored; the output block stored whole; accumulator untouched. -/
noncomputable def runC (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S1024x2048 .f32) (harg6 : arg6.IsWhole) (arg7 : Memref sig .tc .vmem S1024x256 .f32) (harg7 : arg7.IsWhole) (arg8 : Memref sig .tc .vmem S8192x256 .f32) (harg8 : arg8.IsWhole) (arg9 : Memref sig .tc .vmem S1024x256 .f32) (harg9 : arg9.IsWhole) (hc1 : cond1 i) (hc2 : ¬cond2 i) (hc3 : ¬cond3 i) (hc4 : cond4 i)
    (x0 : Vec F S2048x256 .f32) (x1 : Vec F S256x256 .f32) (x2 : Vec F S1x256 .f32) (x3 : Vec F S1x1 .f32) (x4 : Vec F S1024x2048 .f32) (xs0 : Vec F S8192x256 .f32) (xs1 : Vec F S1024x256 .f32) :
    Σ' (L5 : List (View.Piece (Elt F) S1024x256 .f32)) (LS0 : List (View.Piece (Elt F) S8192x256 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9) K } := by
  refine ⟨?_, ?_, [], fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexact HS0
    iexact HS1

end Cert.Kernel.Body

end
-- ==== Proof.KernelBody.RunD.lean ====
/-
  The body's run on a later row block (i > 0) at a middle column chunk (k = 1, 2): no feature chunk is computed, the
  accumulator is neither reset nor finished; the kept features' chunk k is loaded, multiplied by the adjacency block,
  added to the accumulator and stored back.
  The pieces each buffer ends with are found by the run.
-/
import proofs.«166933_g27788438405845_cont_9to1_712_7_alg».proof.Proof.KernelBody.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Later row block, middle chunk: the accumulator is carried; the features are only read; the output window is handed back untouched. -/
noncomputable def runD (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S1024x2048 .f32) (harg6 : arg6.IsWhole) (arg7 : Memref sig .tc .vmem S1024x256 .f32) (harg7 : arg7.IsWhole) (arg8 : Memref sig .tc .vmem S8192x256 .f32) (harg8 : arg8.IsWhole) (arg9 : Memref sig .tc .vmem S1024x256 .f32) (harg9 : arg9.IsWhole) (hc1 : ¬cond1 i) (hc2 : ¬cond2 i) (hc3 : cond3 i) (hc4 : ¬cond4 i)
    (x0 : Vec F S2048x256 .f32) (x1 : Vec F S256x256 .f32) (x2 : Vec F S1x256 .f32) (x3 : Vec F S1x1 .f32) (x4 : Vec F S1024x2048 .f32) (xs0 : Vec F S8192x256 .f32) (xs1 : Vec F S1024x256 .f32) :
    Σ' (LS0 : List (View.Piece (Elt F) S8192x256 .f32)), { LS1 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9) K } := by
  refine ⟨[], ?_, fun xi5 E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexact HS0
    iexact HS1

end Cert.Kernel.Body

end
-- ==== Proof.KernelBody.RunE.lean ====
/-
  The body's run on a later row block at the first column chunk: the accumulator is reset to zero, read back, the
  product of the adjacency block with the kept features' chunk 0 added, and stored.
  The pieces each buffer ends with are found by the run.
-/
import proofs.«166933_g27788438405845_cont_9to1_712_7_alg».proof.Proof.KernelBody.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Later row block, first chunk: accumulator reset then carried; features only read; output handed back untouched. -/
noncomputable def runE (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S1024x2048 .f32) (harg6 : arg6.IsWhole) (arg7 : Memref sig .tc .vmem S1024x256 .f32) (harg7 : arg7.IsWhole) (arg8 : Memref sig .tc .vmem S8192x256 .f32) (harg8 : arg8.IsWhole) (arg9 : Memref sig .tc .vmem S1024x256 .f32) (harg9 : arg9.IsWhole) (hc1 : ¬cond1 i) (hc2 : cond2 i) (hc3 : cond3 i) (hc4 : ¬cond4 i)
    (x0 : Vec F S2048x256 .f32) (x1 : Vec F S256x256 .f32) (x2 : Vec F S1x256 .f32) (x3 : Vec F S1x1 .f32) (x4 : Vec F S1024x2048 .f32) (xs0 : Vec F S8192x256 .f32) (xs1 : Vec F S1024x256 .f32) :
    Σ' (LS0 : List (View.Piece (Elt F) S8192x256 .f32)), { LS1 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9) K } := by
  refine ⟨[], ?_, fun xi5 E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexact HS0
    iexact HS1

end Cert.Kernel.Body

end
-- ==== Proof.KernelBody.RunG.lean ====
/-
  The body's run on a later row block at the last column chunk: the product with the kept features' last chunk is
  added to the accumulator, bias added, the leaky rectifier applied and the output block stored whole.
  The pieces each buffer ends with are found by the run.
-/
import proofs.«166933_g27788438405845_cont_9to1_712_7_alg».proof.Proof.KernelBody.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Later row block, last chunk: the output block stored whole; both scratch buffers only read. -/
noncomputable def runG (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S1024x2048 .f32) (harg6 : arg6.IsWhole) (arg7 : Memref sig .tc .vmem S1024x256 .f32) (harg7 : arg7.IsWhole) (arg8 : Memref sig .tc .vmem S8192x256 .f32) (harg8 : arg8.IsWhole) (arg9 : Memref sig .tc .vmem S1024x256 .f32) (harg9 : arg9.IsWhole) (hc1 : ¬cond1 i) (hc2 : ¬cond2 i) (hc3 : ¬cond3 i) (hc4 : cond4 i)
    (x0 : Vec F S2048x256 .f32) (x1 : Vec F S256x256 .f32) (x2 : Vec F S1x256 .f32) (x3 : Vec F S1x1 .f32) (x4 : Vec F S1024x2048 .f32) (xs0 : Vec F S8192x256 .f32) (xs1 : Vec F S1024x256 .f32) :
    Σ' (L5 : List (View.Piece (Elt F) S1024x256 .f32)) (LS0 : List (View.Piece (Elt F) S8192x256 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9) K } := by
  refine ⟨?_, [], [], fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexact HS0
    iexact HS1

end Cert.Kernel.Body

end
-- ==== Proof.KernelBody.Pieces.lean ====
/-
  The pieces the body's six runs found, in closed form. A run's store into the kept features is one band of rows, at
  the offsets the body computes, holding the feature chunk of the point's sequence block and the weights; the
  accumulator, stored whole, reads back as the sum the body formed (over zero where it was reset first, over what it
  held otherwise, the kept chunk loaded back where it was just stored, or read off the buffer); the output block,
  stored whole on a last chunk, reads back as the rectified sum.
-/
import proofs.«166933_g27788438405845_cont_9to1_712_7_alg».proof.Proof.KernelBody.RunA
import proofs.«166933_g27788438405845_cont_9to1_712_7_alg».proof.Proof.KernelBody.RunB
import proofs.«166933_g27788438405845_cont_9to1_712_7_alg».proof.Proof.KernelBody.RunC
import proofs.«166933_g27788438405845_cont_9to1_712_7_alg».proof.Proof.KernelBody.RunD
import proofs.«166933_g27788438405845_cont_9to1_712_7_alg».proof.Proof.KernelBody.RunE
import proofs.«166933_g27788438405845_cont_9to1_712_7_alg».proof.Proof.KernelBody.RunG
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Three small facts about whole rectangles and read-backs -/

/-- The whole rectangle's offsets, as the body spells them, are zero. -/
private theorem zero2 : (![0, 0] : Fin 2 → Nat) = fun _ => 0 := funext fun a => by fin_cases a <;> rfl

/-- A store through the whole rectangle of the accumulator's (and the output block's) shape, made last, holds every
    index: the list of stores covers. -/
private theorem coverWhole (w : Vec F S1024x256 .f32) (L : List (View.Piece (Elt F) S1024x256 .f32)) (y : S1024x256.Idx) :
    ∃ p ∈ ((⟨Rect.unit (s := S1024x256) ![0, 0] S1024x256.size inb_S1024x256_S1024x256_0_0, w⟩ : View.Piece (Elt F) S1024x256 .f32) :: L), y ∈ p.1.set :=
  ⟨_, List.mem_cons_self, View.mem_set_unit_zero (S := S1024x256) zero2 inb_S1024x256_S1024x256_0_0 y⟩

/-- A load through a unit rectangle whose offsets equal those of the last store's own rectangle (however the two are
    spelt) reads that store's payload: the band of the kept features stored at one offset chain and loaded back at the
    other. -/
private theorem readCov_last_of_off_eq {sg : RefSig} {κ : Kind} {sp : Space} {s : Shape} {e : EltTy} {Val : EltTy → Type}
    [∀ e, Nonempty (Val e)] (v : View sg κ sp s e) {off off' size : Fin s.rank → Nat} (h : off = off')
    (p : ∀ a, off a + size a ≤ s.size a) (p' : ∀ a, off' a + size a ≤ s.size a)
    (w : (Rect.unit off size p).shape.Idx → Val e) (L : List (View.Piece Val s e)) :
    v.readCov (⟨Rect.unit off size p, w⟩ :: L) (Rect.unit off' size p').toLoadRect = w := by
  subst h; exact View.readCov_cons_toLoadRect v _ w L

section
variable (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S1024x2048 .f32) (harg6 : arg6.IsWhole) (arg7 : Memref sig .tc .vmem S1024x256 .f32) (harg7 : arg7.IsWhole) (arg8 : Memref sig .tc .vmem S8192x256 .f32) (harg8 : arg8.IsWhole) (arg9 : Memref sig .tc .vmem S1024x256 .f32) (harg9 : arg9.IsWhole) (x0 : Vec F S2048x256 .f32) (x1 : Vec F S256x256 .f32) (x2 : Vec F S1x256 .f32) (x3 : Vec F S1x1 .f32) (x4 : Vec F S1024x2048 .f32) (xs0 : Vec F S8192x256 .f32) (xs1 : Vec F S1024x256 .f32)

/-! ## The band stored into the kept features (first row block) -/

theorem keptA (hc1 : cond1 i) (hc2 : cond2 i) (hc3 : cond3 i) (hc4 : ¬cond4 i) :
    (runA c i arg2 harg2 arg3 harg3 arg4 harg4 arg5 harg5 arg6 harg6 arg7 harg7 arg8 harg8 arg9 harg9 hc1 hc2 hc3 hc4 x0 x1 x2 x3 x4 xs0 xs1).1 = [⟨Rect.unit (s := S8192x256) (k0_off1 i) S2048x256.size (k0_off1_inb i hc1), k0_pay1 x0 x1⟩] := by
  unfold runA; dsimp only
  sl_unfold_run_names
  simp only [View.readAt_eq_ld, harg2.read_unread, harg3.read_unread,
    View.ld_unit_zero (S := S2048x256) zero2, View.ld_unit_zero (S := S256x256) zero2]
theorem keptB (hc1 : cond1 i) (hc2 : ¬cond2 i) (hc3 : cond3 i) (hc4 : ¬cond4 i) :
    (runB c i arg2 harg2 arg3 harg3 arg4 harg4 arg5 harg5 arg6 harg6 arg7 harg7 arg8 harg8 arg9 harg9 hc1 hc2 hc3 hc4 x0 x1 x2 x3 x4 xs0 xs1).1 = [⟨Rect.unit (s := S8192x256) (k0_off1 i) S2048x256.size (k0_off1_inb i hc1), k0_pay1 x0 x1⟩] := by
  unfold runB; dsimp only
  sl_unfold_run_names
  simp only [View.readAt_eq_ld, harg2.read_unread, harg3.read_unread,
    View.ld_unit_zero (S := S2048x256) zero2, View.ld_unit_zero (S := S256x256) zero2]
theorem keptC (hc1 : cond1 i) (hc2 : ¬cond2 i) (hc3 : ¬cond3 i) (hc4 : cond4 i) :
    (runC c i arg2 harg2 arg3 harg3 arg4 harg4 arg5 harg5 arg6 harg6 arg7 harg7 arg8 harg8 arg9 harg9 hc1 hc2 hc3 hc4 x0 x1 x2 x3 x4 xs0 xs1).2.1 = [⟨Rect.unit (s := S8192x256) (k0_off1 i) S2048x256.size (k0_off1_inb i hc1), k0_pay1 x0 x1⟩] := by
  unfold runC; dsimp only
  sl_unfold_run_names
  simp only [View.readAt_eq_ld, harg2.read_unread, harg3.read_unread,
    View.ld_unit_zero (S := S2048x256) zero2, View.ld_unit_zero (S := S256x256) zero2]

/-- Later row blocks store nothing into the kept features. -/
theorem keptD (hc1 : ¬cond1 i) (hc2 : ¬cond2 i) (hc3 : cond3 i) (hc4 : ¬cond4 i) : (runD c i arg2 harg2 arg3 harg3 arg4 harg4 arg5 harg5 arg6 harg6 arg7 harg7 arg8 harg8 arg9 harg9 hc1 hc2 hc3 hc4 x0 x1 x2 x3 x4 xs0 xs1).1 = [] := by
  rfl
theorem keptE (hc1 : ¬cond1 i) (hc2 : cond2 i) (hc3 : cond3 i) (hc4 : ¬cond4 i) : (runE c i arg2 harg2 arg3 harg3 arg4 harg4 arg5 harg5 arg6 harg6 arg7 harg7 arg8 harg8 arg9 harg9 hc1 hc2 hc3 hc4 x0 x1 x2 x3 x4 xs0 xs1).1 = [] := by
  rfl
theorem keptG (hc1 : ¬cond1 i) (hc2 : ¬cond2 i) (hc3 : ¬cond3 i) (hc4 : cond4 i) : (runG c i arg2 harg2 arg3 harg3 arg4 harg4 arg5 harg5 arg6 harg6 arg7 harg7 arg8 harg8 arg9 harg9 hc1 hc2 hc3 hc4 x0 x1 x2 x3 x4 xs0 xs1).2.1 = [] := by
  rfl
/-- A last chunk stores nothing into the accumulator. -/
theorem accC (hc1 : cond1 i) (hc2 : ¬cond2 i) (hc3 : ¬cond3 i) (hc4 : cond4 i) : (runC c i arg2 harg2 arg3 harg3 arg4 harg4 arg5 harg5 arg6 harg6 arg7 harg7 arg8 harg8 arg9 harg9 hc1 hc2 hc3 hc4 x0 x1 x2 x3 x4 xs0 xs1).2.2.1 = [] := by
  rfl
theorem accG (hc1 : ¬cond1 i) (hc2 : ¬cond2 i) (hc3 : ¬cond3 i) (hc4 : cond4 i) : (runG c i arg2 harg2 arg3 harg3 arg4 harg4 arg5 harg5 arg6 harg6 arg7 harg7 arg8 harg8 arg9 harg9 hc1 hc2 hc3 hc4 x0 x1 x2 x3 x4 xs0 xs1).2.2.1 = [] := by
  rfl

/-! ## The accumulator read back -/

theorem accA (hc1 : cond1 i) (hc2 : cond2 i) (hc3 : cond3 i) (hc4 : ¬cond4 i) :
    arg9.view.read (Elt F) (arg9.view.writes (Elt F) (harg9.unread xs1) (runA c i arg2 harg2 arg3 harg3 arg4 harg4 arg5 harg5 arg6 harg6 arg7 harg7 arg8 harg8 arg9 harg9 hc1 hc2 hc3 hc4 x0 x1 x2 x3 x4 xs0 xs1).2.1)
      = k0_pay4 x4 (k0_pay1 x0 x1) (k0_pay2 (F := F)) := by
  unfold runA; dsimp only
  sl_unfold_run_names
  rw [View.read_writes_eq_canon _ _ _ (coverWhole _ _)]
  rw [View.canon_cons_unit_zero (S := S1024x256) zero2]
  rw [readCov_last_of_off_eq arg8.view ((k0_off1_eq i).trans (k0_off2_eq i).symm)]
  simp only [View.readAt_eq_ld, harg2.read_unread, harg3.read_unread, harg6.read_unread,
    View.ld_unit_zero (S := S2048x256) zero2, View.ld_unit_zero (S := S256x256) zero2,
    View.ld_unit_zero (S := S1024x2048) zero2, View.readCov_unit_zero (S := S1024x256) _ zero2]
theorem accB (hc1 : cond1 i) (hc2 : ¬cond2 i) (hc3 : cond3 i) (hc4 : ¬cond4 i) :
    arg9.view.read (Elt F) (arg9.view.writes (Elt F) (harg9.unread xs1) (runB c i arg2 harg2 arg3 harg3 arg4 harg4 arg5 harg5 arg6 harg6 arg7 harg7 arg8 harg8 arg9 harg9 hc1 hc2 hc3 hc4 x0 x1 x2 x3 x4 xs0 xs1).2.1)
      = k0_pay4 x4 (k0_pay1 x0 x1) xs1 := by
  unfold runB; dsimp only
  sl_unfold_run_names
  rw [View.read_writes_eq_canon _ _ _ (coverWhole _ _)]
  rw [View.canon_unit_zero (S := S1024x256) zero2]
  rw [readCov_last_of_off_eq arg8.view ((k0_off1_eq i).trans (k0_off2_eq i).symm)]
  simp only [View.readAt_eq_ld, harg2.read_unread, harg3.read_unread, harg6.read_unread, harg9.read_unread,
    View.ld_unit_zero (S := S2048x256) zero2, View.ld_unit_zero (S := S256x256) zero2,
    View.ld_unit_zero (S := S1024x2048) zero2, View.ld_unit_zero (S := S1024x256) zero2]
theorem accD (hc1 : ¬cond1 i) (hc2 : ¬cond2 i) (hc3 : cond3 i) (hc4 : ¬cond4 i) :
    arg9.view.read (Elt F) (arg9.view.writes (Elt F) (harg9.unread xs1) (runD c i arg2 harg2 arg3 harg3 arg4 harg4 arg5 harg5 arg6 harg6 arg7 harg7 arg8 harg8 arg9 harg9 hc1 hc2 hc3 hc4 x0 x1 x2 x3 x4 xs0 xs1).2.1)
      = k0_pay4 x4 (View.ld xs0 (Rect.unit (s := S8192x256) (k0_off2 i) S2048x256.size (k0_off2_inb i))) xs1 := by
  unfold runD; dsimp only
  rw [View.read_writes_eq_canon _ _ _ (coverWhole _ _)]
  rw [View.canon_unit_zero (S := S1024x256) zero2]
  simp only [View.readAt_eq_ld, harg6.read_unread, harg8.read_unread, harg9.read_unread,
    View.ld_unit_zero (S := S1024x2048) zero2, View.ld_unit_zero (S := S1024x256) zero2]
theorem accE (hc1 : ¬cond1 i) (hc2 : cond2 i) (hc3 : cond3 i) (hc4 : ¬cond4 i) :
    arg9.view.read (Elt F) (arg9.view.writes (Elt F) (harg9.unread xs1) (runE c i arg2 harg2 arg3 harg3 arg4 harg4 arg5 harg5 arg6 harg6 arg7 harg7 arg8 harg8 arg9 harg9 hc1 hc2 hc3 hc4 x0 x1 x2 x3 x4 xs0 xs1).2.1)
      = k0_pay4 x4 (View.ld xs0 (Rect.unit (s := S8192x256) (k0_off2 i) S2048x256.size (k0_off2_inb i))) (k0_pay2 (F := F)) := by
  unfold runE; dsimp only
  sl_unfold_run_names
  rw [View.read_writes_eq_canon _ _ _ (coverWhole _ _)]
  rw [View.canon_cons_unit_zero (S := S1024x256) zero2]
  simp only [View.readAt_eq_ld, harg6.read_unread, harg8.read_unread,
    View.ld_unit_zero (S := S1024x2048) zero2, View.readCov_unit_zero (S := S1024x256) _ zero2]

/-! ## The output block read back (last chunk) -/

theorem outC (hc1 : cond1 i) (hc2 : ¬cond2 i) (hc3 : ¬cond3 i) (hc4 : cond4 i) (f : arg7.view.ty.Contents (Elt F)) :
    arg7.view.read (Elt F) (arg7.view.writes (Elt F) f (runC c i arg2 harg2 arg3 harg3 arg4 harg4 arg5 harg5 arg6 harg6 arg7 harg7 arg8 harg8 arg9 harg9 hc1 hc2 hc3 hc4 x0 x1 x2 x3 x4 xs0 xs1).1)
      = k0_pay5 x4 (k0_pay1 x0 x1) xs1 x2 x3 := by
  unfold runC; dsimp only
  sl_unfold_run_names
  rw [View.read_writes_eq_canon _ _ _ (coverWhole _ _)]
  rw [View.canon_unit_zero (S := S1024x256) zero2]
  rw [readCov_last_of_off_eq arg8.view ((k0_off1_eq i).trans (k0_off2_eq i).symm)]
  simp only [View.readAt_eq_ld, harg2.read_unread, harg3.read_unread, harg4.read_unread, harg5.read_unread,
    harg6.read_unread, harg9.read_unread,
    View.ld_unit_zero (S := S2048x256) zero2, View.ld_unit_zero (S := S256x256) zero2,
    View.ld_unit_zero (S := S1x256) zero2, View.ld_unit_zero (S := S1x1) zero2,
    View.ld_unit_zero (S := S1024x2048) zero2, View.ld_unit_zero (S := S1024x256) zero2]
theorem outG (hc1 : ¬cond1 i) (hc2 : ¬cond2 i) (hc3 : ¬cond3 i) (hc4 : cond4 i) (f : arg7.view.ty.Contents (Elt F)) :
    arg7.view.read (Elt F) (arg7.view.writes (Elt F) f (runG c i arg2 harg2 arg3 harg3 arg4 harg4 arg5 harg5 arg6 harg6 arg7 harg7 arg8 harg8 arg9 harg9 hc1 hc2 hc3 hc4 x0 x1 x2 x3 x4 xs0 xs1).1)
      = k0_pay5 x4 (View.ld xs0 (Rect.unit (s := S8192x256) (k0_off2 i) S2048x256.size (k0_off2_inb i))) xs1 x2 x3 := by
  unfold runG; dsimp only
  rw [View.read_writes_eq_canon _ _ _ (coverWhole _ _)]
  rw [View.canon_unit_zero (S := S1024x256) zero2]
  simp only [View.readAt_eq_ld, harg4.read_unread, harg5.read_unread, harg6.read_unread, harg8.read_unread,
    harg9.read_unread,
    View.ld_unit_zero (S := S1x256) zero2, View.ld_unit_zero (S := S1x1) zero2,
    View.ld_unit_zero (S := S1024x2048) zero2, View.ld_unit_zero (S := S1024x256) zero2]

end

end Cert.Kernel.Body

end
-- ==== Proof.LibRowBand.lean ====
/-
  A general lemma. A rank-2 buffer into which one band of whole rows [o, o + W) has been stored, over prior contents X:
  read back band by band, the stored band is the stored value, and any band of W rows that does not meet it is what X
  held there. Stated for a whole memref's view and a unit-stride rectangle whose offsets are given by an equation, so
  that offsets a kernel computes are used through their closed form.
-/
import Idealize.ShloMosaic.Lib.WritesUnit
import Idealize.ShloMosaic.Lib.Pipeline.FrameBody
import Idealize.ShloMosaic.Lib.Pipeline.Frame

namespace Idealize.ShloMosaic.RowBand

open Idealize.ShloMosaic

variable {sig : RefSig} {κ : Kind} {sp : Space} {R C W : ℕ} {e : EltTy} {Val : EltTy → Type}

/-- A load through a unit-stride rectangle depends on the offsets only through their values. -/
theorem ld_unit_congr {S : Shape} (X : S.Idx → Val e) {off off' size : Fin S.rank → ℕ} (h : off = off')
    (inb : ∀ a, off a + size a ≤ S.size a) (inb' : ∀ a, off' a + size a ≤ S.size a) :
    View.ld X (Rect.unit (s := S) off size inb) = View.ld X (Rect.unit (s := S) off' size inb') := by
  subst h; rfl

/-- The stored band reads the stored value. -/
theorem ld_write_same (m : Memref sig κ sp ⟨2, ![R, C]⟩ e) (hm : m.IsWhole) (X : (⟨2, ![R, C]⟩ : Shape).Idx → Val e)
    {off off' : Fin 2 → ℕ} {o : ℕ} (hoff : off = ![o, 0]) (hoff' : off' = ![o, 0])
    (inb : ∀ a : Fin 2, off a + (![W, C] : Fin 2 → ℕ) a ≤ (![R, C] : Fin 2 → ℕ) a)
    (inb' : ∀ a : Fin 2, off' a + (![W, C] : Fin 2 → ℕ) a ≤ (![R, C] : Fin 2 → ℕ) a)
    (w : (Rect.unit (s := ⟨2, ![R, C]⟩) off ![W, C] inb).shape.Idx → Val e) :
    View.ld (m.view.read Val (m.view.writes Val (hm.unread X) [⟨Rect.unit (s := ⟨2, ![R, C]⟩) off ![W, C] inb, w⟩]))
        (Rect.unit (s := ⟨2, ![R, C]⟩) off' ![W, C] inb')
      = w := by
  subst hoff'
  funext x
  -- the index read at position x is row o + x 0, column x 1: the position x of the stored band itself
  refine View.read_writes_cons_rows_of_mem m.view (hm.unread X) inb w [] _ x hoff ?_ ?_
  · show o + 1 * (x (0 : Fin 2)).val = o + (x (0 : Fin 2)).val
    rw [Nat.one_mul]
  · show 0 + 1 * (x (1 : Fin 2)).val = (x (1 : Fin 2)).val
    rw [Nat.one_mul, Nat.zero_add]

/-- A band that does not meet the stored one reads the prior contents. -/
theorem ld_write_other (m : Memref sig κ sp ⟨2, ![R, C]⟩ e) (hm : m.IsWhole) (X : (⟨2, ![R, C]⟩ : Shape).Idx → Val e)
    {off off' : Fin 2 → ℕ} {o o' : ℕ} (hoff : off = ![o, 0]) (hoff' : off' = ![o', 0]) (hne : o' + W ≤ o ∨ o + W ≤ o')
    (inb : ∀ a : Fin 2, off a + (![W, C] : Fin 2 → ℕ) a ≤ (![R, C] : Fin 2 → ℕ) a)
    (inb' : ∀ a : Fin 2, off' a + (![W, C] : Fin 2 → ℕ) a ≤ (![R, C] : Fin 2 → ℕ) a)
    (w : (Rect.unit (s := ⟨2, ![R, C]⟩) off ![W, C] inb).shape.Idx → Val e) :
    View.ld (m.view.read Val (m.view.writes Val (hm.unread X) [⟨Rect.unit (s := ⟨2, ![R, C]⟩) off ![W, C] inb, w⟩]))
        (Rect.unit (s := ⟨2, ![R, C]⟩) off' ![W, C] inb')
      = View.ld X (Rect.unit (s := ⟨2, ![R, C]⟩) off' ![W, C] inb') := by
  subst hoff'
  funext x
  -- the row read at position x is o' + x 0 with x 0 < W, which the separation puts outside [o, o + W)
  have hx : (x (0 : Fin 2)).val < W := (x (0 : Fin 2)).isLt
  have hy : ((Rect.unit (s := ⟨2, ![R, C]⟩) ![o', 0] ![W, C] inb').idx x (0 : Fin 2)).val
      = o' + (x (0 : Fin 2)).val := by
    show o' + 1 * (x (0 : Fin 2)).val = o' + (x (0 : Fin 2)).val
    rw [Nat.one_mul]
  refine (View.read_writes_cons_rows_of_not_mem m.view (hm.unread X) inb w [] _ hoff (W := W) rfl
    (by rw [hy]; omega)).trans ?_
  -- nothing else was stored: the rest of the list is empty and the whole memref reads X
  rw [View.writes_nil, hm.read_unread]

end Idealize.ShloMosaic.RowBand
-- ==== Proof.KernelBody.Kept.lean ====
/-
  The kept features' invariant from point to point. On the first row block the body stores the point's feature chunk
  into its own band: that band then reads the chunk, and every band stored before still reads what it read. On later
  row blocks nothing is stored, and the band of the point's column chunk reads the chunk computed on the first row
  block.
-/
import proofs.«166933_g27788438405845_cont_9to1_712_7_alg».proof.Proof.KernelBody.State
import proofs.«166933_g27788438405845_cont_9to1_712_7_alg».proof.Proof.LibRowBand

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The store and the loads of one point address the same band. -/
theorem off1_eq_off2 (i : grid0.Coords) : k0_off1 i = k0_off2 i := by rw [k0_off1_eq, k0_off2_eq]

/-- A first-row-block point stores its chunk into its band: the invariant extends to that point. -/
theorem kept_store (c : Dev nD) (t : Fin cfg0.N) (ht : t.val < 4) (xs0 : Vec F S8192x256 .f32) (hK : KeptOK m c t.val xs0)
    (arg8 : Memref sig .tc .vmem S8192x256 .f32) (harg8 : arg8.IsWhole)
    (inb : ∀ a, (k0_off1 (grid0.coords t)) a + S2048x256.size a ≤ S8192x256.size a) :
    KeptOK m c (t.val + 1) (arg8.view.read (Elt F) (arg8.view.writes (Elt F) (harg8.unread xs0)
      [⟨Rect.unit (s := S8192x256) (k0_off1 (grid0.coords t)) S2048x256.size inb, ftsC m c t⟩])) := by
  unfold KeptOK at hK ⊢
  intro t' ht' ht4
  -- on the first row block the column chunk of a point is the point itself, so both offset chains are row 2048 t
  have hcol : ∀ u : Fin cfg0.N, u.val < 4 → (grid0.coords u 1).val = u.val := fun u hu => by
    rw [coord1 u, Nat.mod_eq_of_lt hu]
  have hoff1 : k0_off1 (grid0.coords t) = ![2048 * t.val, 0] := by rw [k0_off1_eq (grid0.coords t), hcol t ht]
  have hoff2 : k0_off2 (grid0.coords t') = ![2048 * t'.val, 0] := by rw [k0_off2_eq (grid0.coords t'), hcol t' ht4]
  by_cases hEq : t' = t
  · -- the band just stored reads the stored chunk
    subst hEq
    exact RowBand.ld_write_same (R := 8192) (C := 256) (W := 2048) arg8 harg8 xs0 hoff1 hoff2 inb
      (k0_off2_inb (grid0.coords t')) (ftsC m c t')
  · -- an earlier band [2048 t', 2048 t' + 2048) lies below [2048 t, 2048 t + 2048) and reads what it read before
    have hne : t'.val ≠ t.val := fun h => hEq (Fin.ext h)
    have hlt : t'.val < t.val := by omega
    exact (RowBand.ld_write_other (R := 8192) (C := 256) (W := 2048) arg8 harg8 xs0 hoff1 hoff2 (by omega) inb
      (k0_off2_inb (grid0.coords t')) (ftsC m c t)).trans (hK t' hlt ht4)

/-- A later point stores nothing there: the invariant is kept as it is. -/
theorem kept_keep (c : Dev nD) (t : Fin cfg0.N) (ht : 4 ≤ t.val) (xs0 : Vec F S8192x256 .f32) (hK : KeptOK m c t.val xs0) :
    KeptOK m c (t.val + 1) xs0 := by
  unfold KeptOK at hK ⊢
  intro t' ht' ht4
  -- a first-row-block point is below 4 ≤ t already
  exact hK t' (by omega) ht4

/-- On a later row block the band of the point's column chunk holds the chunk computed on the first row block. -/
theorem kept_read (c : Dev nD) (t : Fin cfg0.N) (ht : 4 ≤ t.val) (xs0 : Vec F S8192x256 .f32) (hK : KeptOK m c t.val xs0) :
    View.ld xs0 (crect (grid0.coords t)) = ftsAt m c t := by
  unfold KeptOK at hK
  -- the point t mod 4 lies on the first row block and before t: its band holds its chunk
  have hc4 : (chunkPt t).val < 4 := by rw [chunkPt_val]; exact Nat.mod_lt _ (by decide)
  have hc : (chunkPt t).val < t.val := by omega
  have h := hK (chunkPt t) hc hc4
  unfold ftsAt
  rw [← h]
  -- the band depends on the column chunk only, and t and t mod 4 have the same one
  exact RowBand.ld_unit_congr xs0
    (by rw [k0_off2_eq (grid0.coords t), k0_off2_eq (grid0.coords (chunkPt t)), coord1 t, coord1 (chunkPt t),
      chunkPt_val, Nat.mod_mod])
    (k0_off2_inb (grid0.coords t)) (k0_off2_inb (grid0.coords (chunkPt t)))

end Cert.Kernel.Body

end
-- ==== Proof.KernelBody.Body.lean ====
/-
  The body obligation of the fused graph-convolution kernel, the run of @main and the frame. At every point the body
  is handed each input window's block, the output window's buffer, and through the invariant the two scratch buffers: the
  kept features with the bands of the chunks computed so far known, and the accumulator at what the point before left.
  By cases on the point (first row block or not; first, middle or last column chunk) the matching run applies, and the
  invariant is re-established: a first-row-block point extends the known bands by its own, a later one keeps them and
  reads its chunk from them; the accumulator is reset, carried or left; a last chunk leaves the output block.
-/
import proofs.«166933_g27788438405845_cont_9to1_712_7_alg».proof.Proof.KernelBody.State
import proofs.«166933_g27788438405845_cont_9to1_712_7_alg».proof.Proof.KernelBody.Pieces
import proofs.«166933_g27788438405845_cont_9to1_712_7_alg».proof.Proof.KernelBody.Kept

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [Phi_eq m c t.castSucc, Phi_eq m c t.succ]
  simp only [Fin.coe_castSucc, Fin.val_succ]
  have hN : t.val < 32 := lt_of_lt_of_eq t.isLt (show cfg0.N = 32 from N_0)
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  by_cases h1 : t.val < 4
  · have hc1 : cond1 (grid0.coords t) := (hcond1 t).mpr h1
    by_cases h0 : t.val % 4 = 0
    · have hc2 : cond2 (grid0.coords t) := (hcond2 t).mpr h0
      have h3 : ¬t.val % 4 = 3 := by omega
      have hc3 : cond3 (grid0.coords t) := (hcond3 t).mpr h3
      have hc4 : ¬cond4 (grid0.coords t) := fun h => h3 ((hcond4 t).mp h)
      -- case A
      rw [Dat.leavesExact_idle (dats m 0 c) 5 t (idleAt5 t hc4) (noFlush5 t hc4)]
      unfold PhiS
      iintro ⟨⟨⟨⟨%xs0, %hK, HS0⟩, ⟨%xs1, %hA, HS1⟩⟩, Hg⟩, Ho, ⟨%d0, H0⟩, ⟨%d1, H1⟩, ⟨%d2, H2⟩, ⟨%d3, H3⟩, ⟨%d4, H4⟩, ⟨%d5, H5⟩⟩
      iapply ((runA c (grid0.coords t) (ms0 t) (hs0 t) (ms1 t) (hs1 t) (ms2 t) (hs2 t) (ms3 t) (hs3 t) (ms4 t) (hs4 t) (ms5 t) (hs5 t) scM0 hsc0 scM1 hsc1 hc1 hc2 hc3 hc4 (seqB m c t) (wB m c t) (biasB m c t) (aB m c t) (adjB m c t) xs0 xs1).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexists _; isplitr
            swap
            · unfold owns; iexists _; isplitr
              swap; · iexact HS0
              ipureintro; rfl
            ipureintro
            rw [keptA]; exact kept_store m c t h1 xs0 hK _ _ _
          · iexists _; isplitr
            swap
            · unfold owns; iexists _; isplitr
              swap; · iexact HS1
              ipureintro; rfl
            ipureintro
            rw [accA]
            intro _ _
            show _ = accAfter m c t.val t.isLt
            rw [accAfter_first m c t h0, ftsAt_of_lt m c t h1]
            try rfl
        · iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · have hc2 : ¬cond2 (grid0.coords t) := fun h => h0 ((hcond2 t).mp h)
      by_cases h3 : t.val % 4 = 3
      · have hc3 : ¬cond3 (grid0.coords t) := fun h => (hcond3 t).mp h h3
        have hc4 : cond4 (grid0.coords t) := (hcond4 t).mpr h3
        -- case C
        rw [show (dats m 0 c).leavesExact 5 t = owns (c : Thread nD τ) (ms5 t) fullShare ((dats m 0 c).after 5 t) from by
          unfold Dat.leavesExact; rw [liveAt5 t hc4], after5]
        unfold PhiS
        iintro ⟨⟨⟨⟨%xs0, %hK, HS0⟩, ⟨%xs1, %hA, HS1⟩⟩, Hg⟩, Ho, ⟨%d0, H0⟩, ⟨%d1, H1⟩, ⟨%d2, H2⟩, ⟨%d3, H3⟩, ⟨%d4, H4⟩, ⟨%d5, H5⟩⟩
        iapply ((runC c (grid0.coords t) (ms0 t) (hs0 t) (ms1 t) (hs1 t) (ms2 t) (hs2 t) (ms3 t) (hs3 t) (ms4 t) (hs4 t) (ms5 t) (hs5 t) scM0 hsc0 scM1 hsc1 hc1 hc2 hc3 hc4 (seqB m c t) (wB m c t) (biasB m c t) (aB m c t) (adjB m c t) xs0 xs1).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, H5, HS0, HS1⟩
        isplitl [HS0 HS1 Hg]
        · isplitl [HS0 HS1]
          · isplitl [HS0]
            · iexists _; isplitr
              swap
              · unfold owns; iexists _; isplitr
                swap; · iexact HS0
                ipureintro; rfl
              ipureintro
              rw [keptC]; exact kept_store m c t h1 xs0 hK _ _ _
            · iexists _; isplitr
              swap
              · unfold owns; iexists _; isplitr
                swap; · iexact HS1
                ipureintro; rfl
              ipureintro
              rw [accC, View.writes_nil, hsc1.read_unread]
              intro _ _
              show _ = accAfter m c t.val t.isLt
              rw [accAfter_last m c t h3]; exact hA (by omega) _
          · iexact Hg
        isplitl [Ho]; · iexact Ho
        isplitl [H0]; · iexact H0
        isplitl [H1]; · iexact H1
        isplitl [H2]; · iexact H2
        isplitl [H3]; · iexact H3
        isplitl [H4]; · iexact H4
        icases H5 with ⟨%f5, H5⟩
        unfold owns; iexists _; isplitr
        swap; · iexact H5
        ipureintro
        rw [outC]
        unfold outAt; rw [← hA (by omega) _, ftsAt_of_lt m c t h1]
        try rfl
      · have hc3 : cond3 (grid0.coords t) := (hcond3 t).mpr h3
        have hc4 : ¬cond4 (grid0.coords t) := fun h => h3 ((hcond4 t).mp h)
        -- case B
        rw [Dat.leavesExact_idle (dats m 0 c) 5 t (idleAt5 t hc4) (noFlush5 t hc4)]
        unfold PhiS
        iintro ⟨⟨⟨⟨%xs0, %hK, HS0⟩, ⟨%xs1, %hA, HS1⟩⟩, Hg⟩, Ho, ⟨%d0, H0⟩, ⟨%d1, H1⟩, ⟨%d2, H2⟩, ⟨%d3, H3⟩, ⟨%d4, H4⟩, ⟨%d5, H5⟩⟩
        iapply ((runB c (grid0.coords t) (ms0 t) (hs0 t) (ms1 t) (hs1 t) (ms2 t) (hs2 t) (ms3 t) (hs3 t) (ms4 t) (hs4 t) (ms5 t) (hs5 t) scM0 hsc0 scM1 hsc1 hc1 hc2 hc3 hc4 (seqB m c t) (wB m c t) (biasB m c t) (aB m c t) (adjB m c t) xs0 xs1).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, HS0, HS1⟩
        isplitl [HS0 HS1 Hg]
        · isplitl [HS0 HS1]
          · isplitl [HS0]
            · iexists _; isplitr
              swap
              · unfold owns; iexists _; isplitr
                swap; · iexact HS0
                ipureintro; rfl
              ipureintro
              rw [keptB]; exact kept_store m c t h1 xs0 hK _ _ _
            · iexists _; isplitr
              swap
              · unfold owns; iexists _; isplitr
                swap; · iexact HS1
                ipureintro; rfl
              ipureintro
              rw [accB]
              intro _ _
              show _ = accAfter m c t.val t.isLt
              rw [accAfter_mid m c t h0 h3, ftsAt_of_lt m c t h1, ← hA (by omega) _]
              try rfl
          · iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hc1 : ¬cond1 (grid0.coords t) := fun h => h1 ((hcond1 t).mp h)
    by_cases h0 : t.val % 4 = 0
    · have hc2 : cond2 (grid0.coords t) := (hcond2 t).mpr h0
      have h3 : ¬t.val % 4 = 3 := by omega
      have hc3 : cond3 (grid0.coords t) := (hcond3 t).mpr h3
      have hc4 : ¬cond4 (grid0.coords t) := fun h => h3 ((hcond4 t).mp h)
      -- case E
      rw [Dat.leavesExact_idle (dats m 0 c) 5 t (idleAt5 t hc4) (noFlush5 t hc4)]
      unfold PhiS
      iintro ⟨⟨⟨⟨%xs0, %hK, HS0⟩, ⟨%xs1, %hA, HS1⟩⟩, Hg⟩, Ho, ⟨%d0, H0⟩, ⟨%d1, H1⟩, ⟨%d2, H2⟩, ⟨%d3, H3⟩, ⟨%d4, H4⟩, ⟨%d5, H5⟩⟩
      iapply ((runE c (grid0.coords t) (ms0 t) (hs0 t) (ms1 t) (hs1 t) (ms2 t) (hs2 t) (ms3 t) (hs3 t) (ms4 t) (hs4 t) (ms5 t) (hs5 t) scM0 hsc0 scM1 hsc1 hc1 hc2 hc3 hc4 (seqB m c t) (wB m c t) (biasB m c t) (aB m c t) (adjB m c t) xs0 xs1).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexists _; isplitr
            swap
            · unfold owns; iexists _; isplitr
              swap; · iexact HS0
              ipureintro; rfl
            ipureintro
            rw [keptE, View.writes_nil, hsc0.read_unread]; exact kept_keep m c t (by omega) xs0 hK
          · iexists _; isplitr
            swap
            · unfold owns; iexists _; isplitr
              swap; · iexact HS1
              ipureintro; rfl
            ipureintro
            rw [accE]; rw [kept_read m c t (by omega) xs0 hK]
            intro _ _
            show _ = accAfter m c t.val t.isLt
            rw [accAfter_first m c t h0]
        · iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · have hc2 : ¬cond2 (grid0.coords t) := fun h => h0 ((hcond2 t).mp h)
      by_cases h3 : t.val % 4 = 3
      · have hc3 : ¬cond3 (grid0.coords t) := fun h => (hcond3 t).mp h h3
        have hc4 : cond4 (grid0.coords t) := (hcond4 t).mpr h3
        -- case G
        rw [show (dats m 0 c).leavesExact 5 t = owns (c : Thread nD τ) (ms5 t) fullShare ((dats m 0 c).after 5 t) from by
          unfold Dat.leavesExact; rw [liveAt5 t hc4], after5]
        unfold PhiS
        iintro ⟨⟨⟨⟨%xs0, %hK, HS0⟩, ⟨%xs1, %hA, HS1⟩⟩, Hg⟩, Ho, ⟨%d0, H0⟩, ⟨%d1, H1⟩, ⟨%d2, H2⟩, ⟨%d3, H3⟩, ⟨%d4, H4⟩, ⟨%d5, H5⟩⟩
        iapply ((runG c (grid0.coords t) (ms0 t) (hs0 t) (ms1 t) (hs1 t) (ms2 t) (hs2 t) (ms3 t) (hs3 t) (ms4 t) (hs4 t) (ms5 t) (hs5 t) scM0 hsc0 scM1 hsc1 hc1 hc2 hc3 hc4 (seqB m c t) (wB m c t) (biasB m c t) (aB m c t) (adjB m c t) xs0 xs1).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, H5, HS0, HS1⟩
        isplitl [HS0 HS1 Hg]
        · isplitl [HS0 HS1]
          · isplitl [HS0]
            · iexists _; isplitr
              swap
              · unfold owns; iexists _; isplitr
                swap; · iexact HS0
                ipureintro; rfl
              ipureintro
              rw [keptG, View.writes_nil, hsc0.read_unread]; exact kept_keep m c t (by omega) xs0 hK
            · iexists _; isplitr
              swap
              · unfold owns; iexists _; isplitr
                swap; · iexact HS1
                ipureintro; rfl
              ipureintro
              rw [accG, View.writes_nil, hsc1.read_unread]
              intro _ _
              show _ = accAfter m c t.val t.isLt
              rw [accAfter_last m c t h3]; exact hA (by omega) _
          · iexact Hg
        isplitl [Ho]; · iexact Ho
        isplitl [H0]; · iexact H0
        isplitl [H1]; · iexact H1
        isplitl [H2]; · iexact H2
        isplitl [H3]; · iexact H3
        isplitl [H4]; · iexact H4
        icases H5 with ⟨%f5, H5⟩
        unfold owns; iexists _; isplitr
        swap; · iexact H5
        ipureintro
        rw [outG]; rw [kept_read m c t (by omega) xs0 hK]
        unfold outAt; rw [← hA (by omega) _]
      · have hc3 : cond3 (grid0.coords t) := (hcond3 t).mpr h3
        have hc4 : ¬cond4 (grid0.coords t) := fun h => h3 ((hcond4 t).mp h)
        -- case D
        rw [Dat.leavesExact_idle (dats m 0 c) 5 t (idleAt5 t hc4) (noFlush5 t hc4)]
        unfold PhiS
        iintro ⟨⟨⟨⟨%xs0, %hK, HS0⟩, ⟨%xs1, %hA, HS1⟩⟩, Hg⟩, Ho, ⟨%d0, H0⟩, ⟨%d1, H1⟩, ⟨%d2, H2⟩, ⟨%d3, H3⟩, ⟨%d4, H4⟩, ⟨%d5, H5⟩⟩
        iapply ((runD c (grid0.coords t) (ms0 t) (hs0 t) (ms1 t) (hs1 t) (ms2 t) (hs2 t) (ms3 t) (hs3 t) (ms4 t) (hs4 t) (ms5 t) (hs5 t) scM0 hsc0 scM1 hsc1 hc1 hc2 hc3 hc4 (seqB m c t) (wB m c t) (biasB m c t) (aB m c t) (adjB m c t) xs0 xs1).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, HS0, HS1⟩
        isplitl [HS0 HS1 Hg]
        · isplitl [HS0 HS1]
          · isplitl [HS0]
            · iexists _; isplitr
              swap
              · unfold owns; iexists _; isplitr
                swap; · iexact HS0
                ipureintro; rfl
              ipureintro
              rw [keptD, View.writes_nil, hsc0.read_unread]; exact kept_keep m c t (by omega) xs0 hK
            · iexists _; isplitr
              swap
              · unfold owns; iexists _; isplitr
                swap; · iexact HS1
                ipureintro; rfl
              ipureintro
              rw [accD]; rw [kept_read m c t (by omega) xs0 hK]
              intro _ _
              show _ = accAfter m c t.val t.isLt
              rw [accAfter_mid m c t h0 h3, ← hA (by omega) _]
          · iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no band is known yet and nothing is said
    of the accumulator. -/
theorem hin (c : Dev nD) : Pipeline.ΦA spec0 c ⊢ (dats m 0 c).Φ 0 := by
  rw [Phi_eq m c 0, PhiA0_eq]
  unfold PhiS
  iintro ⟨⟨⟨%d0, HS0⟩, ⟨%d1, HS1⟩⟩, Hg⟩
  isplitl [HS0 HS1]
  · isplitl [HS0]
    · iexists d0; isplitr; · ipureintro; exact fun t' h => absurd h (Nat.not_lt_zero _)
      iexact HS0
    · iexists d1; isplitr; · ipureintro; exact fun h => absurd rfl h
      iexact HS1
  iexact Hg

/-- After the last point the invariant gives the class's back: what the scratch buffers hold is forgotten. -/
theorem hout (c : Dev nD) : (dats m 0 c).Φ (Fin.last cfg0.N) ⊢ Pipeline.ΦA spec0 c := by
  rw [Phi_eq m c (Fin.last cfg0.N), PhiA0_eq]
  unfold PhiS
  iintro ⟨⟨⟨%S, -, HS0⟩, ⟨%X, -, HS1⟩⟩, Hg⟩
  isplitl [HS0 HS1]
  · isplitl [HS0]
    · iexists _; iexact HS0
    · iexists _; iexact HS1
  iexact Hg

set_option backward.isDefEq.respectTransparency.types false in
/-- Every weakly fair execution of @main on the TensorCores terminates, and every final state has every array of the
    pipeline at what the library computes from the proof data and every other unscoped buffer as the line after the
    region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere and leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.KernelIdealBody.Shared.lean ====
/-
  What the body's runs and the proof data of the fused graph-convolution kernel share. The kernel visits the grid
  (i, k), i < 8 row blocks of the adjacency, k < 4 column chunks of 2048: point t = 4 i + k. Its four branches are
  on the coordinates alone — the feature chunk is computed and kept only on the first row block (i = 0, t < 4), the
  accumulator is reset on the first chunk (k = 0), carried on all but the last (k < 3) and the output block is formed
  on the last (k = 3) — so each is decided over the 32 points in closed form. The output window is idle off the last
  chunk and written back on it. The two scratch buffers (the kept features, 8192 x 256, and the accumulator,
  1024 x 256) are whole scoped buffers of the kernel's own.
-/
import proofs.«166933_g27788438405845_cont_9to1_712_7_alg».proof.Proof.Gen.KernelIdeal.Launch
import proofs.«166933_g27788438405845_cont_9to1_712_7_alg».proof.Proof.Gen.KernelIdeal.Skeleton
import proofs.«166933_g27788438405845_cont_9to1_712_7_alg».proof.Proof.Gen.KernelIdeal.Points
import proofs.«166933_g27788438405845_cont_9to1_712_7_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four branch conditions, as the body spells them, and where they hold -/

/-- First row block: the feature chunk is computed and stored. -/
abbrev cond1 (i : grid0.Coords) : Prop := k0_cond1 i = 1#1
/-- First column chunk: the accumulator is reset. -/
abbrev cond2 (i : grid0.Coords) : Prop :=
  (Scalar.cmpi .ne (Scalar.extui (Scalar.cmpi .eq (BitVec.ofNat 32 (i 1).val) 0#32)) 0#32) = 1#1
/-- Not the last column chunk: the accumulator is carried. -/
abbrev cond3 (i : grid0.Coords) : Prop :=
  (Scalar.cmpi .ne (Scalar.extui (Scalar.cmpi .slt (BitVec.ofNat 32 (i 1).val) 3#32)) 0#32) = 1#1
/-- Last column chunk: the output block is formed. -/
abbrev cond4 (i : grid0.Coords) : Prop := k0_cond4 i = 1#1

theorem hcond1 : ∀ t : Fin cfg0.N, cond1 (grid0.coords t) ↔ t.val < 4 :=
  (by decide +kernel : ∀ t : Fin grid0.N, cond1 (grid0.coords t) ↔ t.val < 4)
theorem hcond2 : ∀ t : Fin cfg0.N, cond2 (grid0.coords t) ↔ t.val % 4 = 0 :=
  (by decide +kernel : ∀ t : Fin grid0.N, cond2 (grid0.coords t) ↔ t.val % 4 = 0)
theorem hcond3 : ∀ t : Fin cfg0.N, cond3 (grid0.coords t) ↔ ¬ t.val % 4 = 3 :=
  (by decide +kernel : ∀ t : Fin grid0.N, cond3 (grid0.coords t) ↔ ¬ t.val % 4 = 3)
theorem hcond4 : ∀ t : Fin cfg0.N, cond4 (grid0.coords t) ↔ t.val % 4 = 3 :=
  (by decide +kernel : ∀ t : Fin grid0.N, cond4 (grid0.coords t) ↔ t.val % 4 = 3)

/-- The column chunk of point t is t mod 4. -/
theorem coord1 : ∀ t : Fin cfg0.N, (grid0.coords t 1).val = t.val % 4 :=
  (by decide +kernel : ∀ t : Fin grid0.N, (grid0.coords t 1).val = t.val % 4)
/-- The row block of point t is t div 4. -/
theorem coord0 : ∀ t : Fin cfg0.N, (grid0.coords t 0).val = t.val / 4 :=
  (by decide +kernel : ∀ t : Fin grid0.N, (grid0.coords t 0).val = t.val / 4)

/-! ## Where the windows are idle, and where the output is written back -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
/-- On the last chunk the output window is live: the body stores its whole block. -/
theorem liveAt5 : ∀ t : Fin cfg0.N, cond4 (grid0.coords t) → cfg0.idle 5 (grid0.coords t) = false := by decide +kernel
/-- Off the last chunk it is idle and not written back. -/
theorem idleAt5 : ∀ t : Fin cfg0.N, ¬cond4 (grid0.coords t) → cfg0.idle 5 (grid0.coords t) = true := by decide +kernel
theorem noFlush5 : ∀ t : Fin cfg0.N, ¬cond4 (grid0.coords t) → (cfg0.win 5).flush t = false := by decide +kernel

/-! ## The memrefs the body is called with -/

abbrev ms0 (t : Fin cfg0.N) : Memref sig .tc .vmem S2048x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x256 .f32 := win0_5.stage (cfg0.slots t 5)
abbrev hs5 (t : Fin cfg0.N) : (ms5 t).IsWhole := hstage0_5 ((cfg0.slots t 5).cast nbuf0_5)
/-- The kept features. -/
abbrev scM0 : Memref sig .tc .vmem S8192x256 .f32 := Memref.whole cc0_scratch0
/-- The accumulator. -/
abbrev scM1 : Memref sig .tc .vmem S1024x256 .f32 := Memref.whole cc0_scratch1
abbrev hsc0 : (scM0).IsWhole := Memref.isWhole_whole _
abbrev hsc1 : (scM1).IsWhole := Memref.isWhole_whole _

/-- The class's invariant opened: both scratch buffers owned whole at some contents, and the generator register. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.KernelIdeal.Body

end
-- ==== Proof.KernelIdealBody.State.lean ====
/-
  What the two scratch buffers and the output block hold point by point, as pure values of the windows' blocks, the
  region's invariant and the pipeline's proof data.
  The kernel visits point t = 4 i + k (row block i of the adjacency, column chunk k). On the first row block (t < 4) it
  computes the feature chunk of the sequence block t against the weights (`ftsC t`) and stores it into rows
  [2048 t, 2048 t + 2048) of the kept features; that chunk is never written again. At every point it multiplies the
  adjacency block by the kept chunk k = t mod 4 (`ftsAt t`), adds it to the accumulator (zero on the first chunk) and,
  on all but the last chunk, stores the sum back (`accAfter`); on the last chunk it adds the bias, applies the leaky
  rectifier and stores the output block (`outAt`).
  The kept features are stored band by band, so after point n - 1 only the bands of the chunks computed so far are
  known (`KeptOK n`); the rest of that buffer holds whatever it held when the region was entered.
-/
import proofs.«166933_g27788438405845_cont_9to1_712_7_alg».proof.Proof.KernelIdealBody.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks at their literal types -/

/-- The sequence block the point is handed: rows [2048 t, 2048 t + 2048) on the first row block. -/
abbrev seqB (c : Dev nD) (t : Fin cfg0.N) : Vec F S2048x256 .f32 := iblk m c 0 t
/-- The weights (the same block at every point). -/
abbrev wB (c : Dev nD) (t : Fin cfg0.N) : Vec F S256x256 .f32 := iblk m c 1 t
/-- The bias row. -/
abbrev biasB (c : Dev nD) (t : Fin cfg0.N) : Vec F S1x256 .f32 := iblk m c 2 t
/-- The slope. -/
abbrev aB (c : Dev nD) (t : Fin cfg0.N) : Vec F S1x1 .f32 := iblk m c 3 t
/-- The adjacency block (i, k). -/
abbrev adjB (c : Dev nD) (t : Fin cfg0.N) : Vec F S1024x2048 .f32 := iblk m c 4 t

/-! ## The kept features -/

theorem N32 : cfg0.N = 32 := N_0

/-- The point of the first row block that has point t's column chunk. -/
def chunkPt (t : Fin cfg0.N) : Fin cfg0.N := ⟨t.val % 4, by have h : cfg0.N = 32 := N_0; omega⟩

theorem chunkPt_val (t : Fin cfg0.N) : (chunkPt t).val = t.val % 4 := rfl
theorem chunkPt_of_lt (t : Fin cfg0.N) (h : t.val < 4) : chunkPt t = t := Fin.ext (Nat.mod_eq_of_lt h)

/-- The feature chunk computed at point t of the first row block: the sequence block against the weights. -/
def ftsC (c : Dev nD) (t : Fin cfg0.N) : Vec F S2048x256 .f32 := k0_pay1 (seqB m c t) (wB m c t)

/-- The feature chunk point t multiplies the adjacency block by: the one computed at the first row block's point of
    the same column chunk. -/
def ftsAt (c : Dev nD) (t : Fin cfg0.N) : Vec F S2048x256 .f32 := ftsC m c (chunkPt t)

theorem ftsAt_of_lt (c : Dev nD) (t : Fin cfg0.N) (h : t.val < 4) : ftsAt m c t = ftsC m c t := by
  unfold ftsAt; rw [chunkPt_of_lt t h]

/-- The band of the kept features that holds the chunk of a point with coordinates i: rows [2048 k, 2048 k + 2048). -/
abbrev crect (i : grid0.Coords) : Rect S8192x256 := Rect.unit (s := S8192x256) (k0_off2 i) S2048x256.size (k0_off2_inb i)

/-- After the points below n, the kept features S hold, in the band of every chunk computed so far, that chunk. -/
def KeptOK (c : Dev nD) (n : ℕ) (S : Vec F S8192x256 .f32) : Prop :=
  ∀ t' : Fin cfg0.N, t'.val < n → t'.val < 4 → View.ld S (crect (grid0.coords t')) = ftsC m c t'

/-! ## The accumulator and the output block -/

/-- What the accumulator holds after point n: the adjacency block times the kept chunk, over zero on a first chunk
    and over what the point before left on a middle one; a last chunk leaves it as it was. -/
def accAfter (c : Dev nD) : (n : ℕ) → n < cfg0.N → Vec F S1024x256 .f32
  | 0, h => k0_pay4 (adjB m c ⟨0, h⟩) (ftsAt m c ⟨0, h⟩) (k0_pay2 (F := F))
  | n + 1, h =>
    if (n + 1) % 4 = 0 then k0_pay4 (adjB m c ⟨n + 1, h⟩) (ftsAt m c ⟨n + 1, h⟩) (k0_pay2 (F := F))
    else if (n + 1) % 4 = 3 then accAfter c n (Nat.lt_of_succ_lt h)
    else k0_pay4 (adjB m c ⟨n + 1, h⟩) (ftsAt m c ⟨n + 1, h⟩) (accAfter c n (Nat.lt_of_succ_lt h))

theorem accAfter_first (c : Dev nD) (t : Fin cfg0.N) (h0 : t.val % 4 = 0) :
    accAfter m c t.val t.isLt = k0_pay4 (adjB m c t) (ftsAt m c t) (k0_pay2 (F := F)) := by
  obtain ⟨n, hn⟩ := t
  cases n with
  | zero => rfl
  | succ n => exact (if_pos h0).trans rfl

theorem accAfter_mid (c : Dev nD) (t : Fin cfg0.N) (h0 : ¬t.val % 4 = 0) (h3 : ¬t.val % 4 = 3) :
    accAfter m c t.val t.isLt
      = k0_pay4 (adjB m c t) (ftsAt m c t) (accAfter m c (t.val - 1) (Nat.lt_of_le_of_lt (Nat.sub_le _ _) t.isLt)) := by
  obtain ⟨n, hn⟩ := t
  cases n with
  | zero => exact absurd (Nat.zero_mod _) h0
  | succ n => exact (if_neg h0).trans ((if_neg h3).trans rfl)

theorem accAfter_last (c : Dev nD) (t : Fin cfg0.N) (h3 : t.val % 4 = 3) :
    accAfter m c t.val t.isLt = accAfter m c (t.val - 1) (Nat.lt_of_le_of_lt (Nat.sub_le _ _) t.isLt) := by
  obtain ⟨n, hn⟩ := t
  cases n with
  | zero => exact absurd h3 (by dsimp only; omega)
  | succ n => exact (if_neg (by dsimp only at h3 ⊢; omega)).trans ((if_pos h3).trans rfl)

/-- The accumulator X is what the point before n left (nothing is said before the first point). -/
def AccOK (c : Dev nD) (n : ℕ) (X : Vec F S1024x256 .f32) : Prop :=
  ∀ (h : n ≠ 0) (h' : n - 1 < cfg0.N), X = accAfter m c (n - 1) h'

/-- The output block a last-chunk point forms: the accumulator the point before left plus this chunk's product, plus
    the bias, through the leaky rectifier. (Off the last chunk nothing consults it: the window is idle there.) -/
def outAt (c : Dev nD) (t : Fin cfg0.N) : Vec F S1024x256 .f32 :=
  k0_pay5 (adjB m c t) (ftsAt m c t) (accAfter m c (t.val - 1) (Nat.lt_of_le_of_lt (Nat.sub_le _ _) t.isLt)) (biasB m c t) (aB m c t)

/-! ## The region's invariant and the proof data -/

/-- Before point n: the kept features at some contents whose computed bands are known, the accumulator at what the
    point before left (at anything before the first point), the generator register at some state. -/
def PhiS (c : Dev nD) (n : ℕ) : sProp 𝕄 :=
  iprop(iprop((∃ S, ⌜KeptOK m c n S⌝ ∗ owns (c : Thread nD τ) scM0 fullShare S)
      ∗ (∃ X, ⌜AccOK m c n X⌝ ∗ owns (c : Thread nD τ) scM1 fullShare X)) ∗ (∃ r, prngReg c r))

/-- The proof data of the one pipeline on core c: the arrays as the region finds them; after the body each input's
    buffer at its block and the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

theorem Phi_eq (c : Dev nD) (t : Fin (cfg0.N + 1)) : (dats m 0 c).Φ t = PhiS m c t.val := by dsimp only [dats]

end Cert.KernelIdeal.Body

end
-- ==== Proof.KernelIdealBody.RunA.lean ====
/-
  The body's run on the first row block at the first column chunk (point 0): the feature chunk 0 is computed from the
  sequence block and the weights and stored into the kept features, read back, multiplied by the adjacency block; the
  accumulator is reset to zero, read back, and the sum stored.
  The pieces each buffer ends with are found by the run.
-/
import proofs.«166933_g27788438405845_cont_9to1_712_7_alg».proof.Proof.KernelIdealBody.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First row block, first chunk: features' chunk stored; accumulator reset then carried; output handed back untouched. -/
noncomputable def runA (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S1024x2048 .f32) (harg6 : arg6.IsWhole) (arg7 : Memref sig .tc .vmem S1024x256 .f32) (harg7 : arg7.IsWhole) (arg8 : Memref sig .tc .vmem S8192x256 .f32) (harg8 : arg8.IsWhole) (arg9 : Memref sig .tc .vmem S1024x256 .f32) (harg9 : arg9.IsWhole) (hc1 : cond1 i) (hc2 : cond2 i) (hc3 : cond3 i) (hc4 : ¬cond4 i)
    (x0 : Vec F S2048x256 .f32) (x1 : Vec F S256x256 .f32) (x2 : Vec F S1x256 .f32) (x3 : Vec F S1x1 .f32) (x4 : Vec F S1024x2048 .f32) (xs0 : Vec F S8192x256 .f32) (xs1 : Vec F S1024x256 .f32) :
    Σ' (LS0 : List (View.Piece (Elt F) S8192x256 .f32)), { LS1 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9) K } := by
  refine ⟨?_, ?_, fun xi5 E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexact HS0
    iexact HS1

end Cert.KernelIdeal.Body

end
-- ==== Proof.KernelIdealBody.RunB.lean ====
/-
  The body's run on the first row block at a middle column chunk (points 1, 2): the feature chunk is computed and
  stored into the kept features, read back, multiplied by the adjacency block and added to the carried accumulator.
  The pieces each buffer ends with are found by the run.
-/
import proofs.«166933_g27788438405845_cont_9to1_712_7_alg».proof.Proof.KernelIdealBody.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First row block, middle chunk: features' chunk stored; accumulator carried; output handed back untouched. -/
noncomputable def runB (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S1024x2048 .f32) (harg6 : arg6.IsWhole) (arg7 : Memref sig .tc .vmem S1024x256 .f32) (harg7 : arg7.IsWhole) (arg8 : Memref sig .tc .vmem S8192x256 .f32) (harg8 : arg8.IsWhole) (arg9 : Memref sig .tc .vmem S1024x256 .f32) (harg9 : arg9.IsWhole) (hc1 : cond1 i) (hc2 : ¬cond2 i) (hc3 : cond3 i) (hc4 : ¬cond4 i)
    (x0 : Vec F S2048x256 .f32) (x1 : Vec F S256x256 .f32) (x2 : Vec F S1x256 .f32) (x3 : Vec F S1x1 .f32) (x4 : Vec F S1024x2048 .f32) (xs0 : Vec F S8192x256 .f32) (xs1 : Vec F S1024x256 .f32) :
    Σ' (LS0 : List (View.Piece (Elt F) S8192x256 .f32)), { LS1 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9) K } := by
  refine ⟨?_, ?_, fun xi5 E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexact HS0
    iexact HS1

end Cert.KernelIdeal.Body

end
-- ==== Proof.KernelIdealBody.RunC.lean ====
/-
  The body's run on the first row block at the last column chunk (point 3): the last feature chunk is computed and
  stored, read back, multiplied by the adjacency block, added to the accumulator; bias is added and the leaky
  rectifier applied, and the result stored whole into the output block. The accumulator is not stored.
  The pieces each buffer ends with are found by the run.
-/
import proofs.«166933_g27788438405845_cont_9to1_712_7_alg».proof.Proof.KernelIdealBody.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First row block, last chunk: features' chunk stored; the output block stored whole; accumulator untouched. -/
noncomputable def runC (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S1024x2048 .f32) (harg6 : arg6.IsWhole) (arg7 : Memref sig .tc .vmem S1024x256 .f32) (harg7 : arg7.IsWhole) (arg8 : Memref sig .tc .vmem S8192x256 .f32) (harg8 : arg8.IsWhole) (arg9 : Memref sig .tc .vmem S1024x256 .f32) (harg9 : arg9.IsWhole) (hc1 : cond1 i) (hc2 : ¬cond2 i) (hc3 : ¬cond3 i) (hc4 : cond4 i)
    (x0 : Vec F S2048x256 .f32) (x1 : Vec F S256x256 .f32) (x2 : Vec F S1x256 .f32) (x3 : Vec F S1x1 .f32) (x4 : Vec F S1024x2048 .f32) (xs0 : Vec F S8192x256 .f32) (xs1 : Vec F S1024x256 .f32) :
    Σ' (L5 : List (View.Piece (Elt F) S1024x256 .f32)) (LS0 : List (View.Piece (Elt F) S8192x256 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9) K } := by
  refine ⟨?_, ?_, [], fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexact HS0
    iexact HS1

end Cert.KernelIdeal.Body

end
-- ==== Proof.KernelIdealBody.RunD.lean ====
/-
  The body's run on a later row block (i > 0) at a middle column chunk (k = 1, 2): no feature chunk is computed, the
  accumulator is neither reset nor finished; the kept features' chunk k is loaded, multiplied by the adjacency block,
  added to the accumulator and stored back.
  The pieces each buffer ends with are found by the run.
-/
import proofs.«166933_g27788438405845_cont_9to1_712_7_alg».proof.Proof.KernelIdealBody.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Later row block, middle chunk: the accumulator is carried; the features are only read; the output window is handed back untouched. -/
noncomputable def runD (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S1024x2048 .f32) (harg6 : arg6.IsWhole) (arg7 : Memref sig .tc .vmem S1024x256 .f32) (harg7 : arg7.IsWhole) (arg8 : Memref sig .tc .vmem S8192x256 .f32) (harg8 : arg8.IsWhole) (arg9 : Memref sig .tc .vmem S1024x256 .f32) (harg9 : arg9.IsWhole) (hc1 : ¬cond1 i) (hc2 : ¬cond2 i) (hc3 : cond3 i) (hc4 : ¬cond4 i)
    (x0 : Vec F S2048x256 .f32) (x1 : Vec F S256x256 .f32) (x2 : Vec F S1x256 .f32) (x3 : Vec F S1x1 .f32) (x4 : Vec F S1024x2048 .f32) (xs0 : Vec F S8192x256 .f32) (xs1 : Vec F S1024x256 .f32) :
    Σ' (LS0 : List (View.Piece (Elt F) S8192x256 .f32)), { LS1 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9) K } := by
  refine ⟨[], ?_, fun xi5 E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexact HS0
    iexact HS1

end Cert.KernelIdeal.Body

end
-- ==== Proof.KernelIdealBody.RunE.lean ====
/-
  The body's run on a later row block at the first column chunk: the accumulator is reset to zero, read back, the
  product of the adjacency block with the kept features' chunk 0 added, and stored.
  The pieces each buffer ends with are found by the run.
-/
import proofs.«166933_g27788438405845_cont_9to1_712_7_alg».proof.Proof.KernelIdealBody.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Later row block, first chunk: accumulator reset then carried; features only read; output handed back untouched. -/
noncomputable def runE (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S1024x2048 .f32) (harg6 : arg6.IsWhole) (arg7 : Memref sig .tc .vmem S1024x256 .f32) (harg7 : arg7.IsWhole) (arg8 : Memref sig .tc .vmem S8192x256 .f32) (harg8 : arg8.IsWhole) (arg9 : Memref sig .tc .vmem S1024x256 .f32) (harg9 : arg9.IsWhole) (hc1 : ¬cond1 i) (hc2 : cond2 i) (hc3 : cond3 i) (hc4 : ¬cond4 i)
    (x0 : Vec F S2048x256 .f32) (x1 : Vec F S256x256 .f32) (x2 : Vec F S1x256 .f32) (x3 : Vec F S1x1 .f32) (x4 : Vec F S1024x2048 .f32) (xs0 : Vec F S8192x256 .f32) (xs1 : Vec F S1024x256 .f32) :
    Σ' (LS0 : List (View.Piece (Elt F) S8192x256 .f32)), { LS1 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9) K } := by
  refine ⟨[], ?_, fun xi5 E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexact HS0
    iexact HS1

end Cert.KernelIdeal.Body

end
-- ==== Proof.KernelIdealBody.RunG.lean ====
/-
  The body's run on a later row block at the last column chunk: the product with the kept features' last chunk is
  added to the accumulator, bias added, the leaky rectifier applied and the output block stored whole.
  The pieces each buffer ends with are found by the run.
-/
import proofs.«166933_g27788438405845_cont_9to1_712_7_alg».proof.Proof.KernelIdealBody.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Later row block, last chunk: the output block stored whole; both scratch buffers only read. -/
noncomputable def runG (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S1024x2048 .f32) (harg6 : arg6.IsWhole) (arg7 : Memref sig .tc .vmem S1024x256 .f32) (harg7 : arg7.IsWhole) (arg8 : Memref sig .tc .vmem S8192x256 .f32) (harg8 : arg8.IsWhole) (arg9 : Memref sig .tc .vmem S1024x256 .f32) (harg9 : arg9.IsWhole) (hc1 : ¬cond1 i) (hc2 : ¬cond2 i) (hc3 : ¬cond3 i) (hc4 : cond4 i)
    (x0 : Vec F S2048x256 .f32) (x1 : Vec F S256x256 .f32) (x2 : Vec F S1x256 .f32) (x3 : Vec F S1x1 .f32) (x4 : Vec F S1024x2048 .f32) (xs0 : Vec F S8192x256 .f32) (xs1 : Vec F S1024x256 .f32) :
    Σ' (L5 : List (View.Piece (Elt F) S1024x256 .f32)) (LS0 : List (View.Piece (Elt F) S8192x256 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9) K } := by
  refine ⟨?_, [], [], fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexact HS0
    iexact HS1

end Cert.KernelIdeal.Body

end
-- ==== Proof.KernelIdealBody.Pieces.lean ====
/-
  The pieces the body's six runs found, in closed form. A run's store into the kept features is one band of rows, at
  the offsets the body computes, holding the feature chunk of the point's sequence block and the weights; the
  accumulator, stored whole, reads back as the sum the body formed (over zero where it was reset first, over what it
  held otherwise, the kept chunk loaded back where it was just stored, or read off the buffer); the output block,
  stored whole on a last chunk, reads back as the rectified sum.
-/
import proofs.«166933_g27788438405845_cont_9to1_712_7_alg».proof.Proof.KernelIdealBody.RunA
import proofs.«166933_g27788438405845_cont_9to1_712_7_alg».proof.Proof.KernelIdealBody.RunB
import proofs.«166933_g27788438405845_cont_9to1_712_7_alg».proof.Proof.KernelIdealBody.RunC
import proofs.«166933_g27788438405845_cont_9to1_712_7_alg».proof.Proof.KernelIdealBody.RunD
import proofs.«166933_g27788438405845_cont_9to1_712_7_alg».proof.Proof.KernelIdealBody.RunE
import proofs.«166933_g27788438405845_cont_9to1_712_7_alg».proof.Proof.KernelIdealBody.RunG
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Three small facts about whole rectangles and read-backs -/

/-- The whole rectangle's offsets, as the body spells them, are zero. -/
private theorem zero2 : (![0, 0] : Fin 2 → Nat) = fun _ => 0 := funext fun a => by fin_cases a <;> rfl

/-- A store through the whole rectangle of the accumulator's (and the output block's) shape, made last, holds every
    index: the list of stores covers. -/
private theorem coverWhole (w : Vec F S1024x256 .f32) (L : List (View.Piece (Elt F) S1024x256 .f32)) (y : S1024x256.Idx) :
    ∃ p ∈ ((⟨Rect.unit (s := S1024x256) ![0, 0] S1024x256.size inb_S1024x256_S1024x256_0_0, w⟩ : View.Piece (Elt F) S1024x256 .f32) :: L), y ∈ p.1.set :=
  ⟨_, List.mem_cons_self, View.mem_set_unit_zero (S := S1024x256) zero2 inb_S1024x256_S1024x256_0_0 y⟩

/-- A load through a unit rectangle whose offsets equal those of the last store's own rectangle (however the two are
    spelt) reads that store's payload: the band of the kept features stored at one offset chain and loaded back at the
    other. -/
private theorem readCov_last_of_off_eq {sg : RefSig} {κ : Kind} {sp : Space} {s : Shape} {e : EltTy} {Val : EltTy → Type}
    [∀ e, Nonempty (Val e)] (v : View sg κ sp s e) {off off' size : Fin s.rank → Nat} (h : off = off')
    (p : ∀ a, off a + size a ≤ s.size a) (p' : ∀ a, off' a + size a ≤ s.size a)
    (w : (Rect.unit off size p).shape.Idx → Val e) (L : List (View.Piece Val s e)) :
    v.readCov (⟨Rect.unit off size p, w⟩ :: L) (Rect.unit off' size p').toLoadRect = w := by
  subst h; exact View.readCov_cons_toLoadRect v _ w L

section
variable (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S1024x2048 .f32) (harg6 : arg6.IsWhole) (arg7 : Memref sig .tc .vmem S1024x256 .f32) (harg7 : arg7.IsWhole) (arg8 : Memref sig .tc .vmem S8192x256 .f32) (harg8 : arg8.IsWhole) (arg9 : Memref sig .tc .vmem S1024x256 .f32) (harg9 : arg9.IsWhole) (x0 : Vec F S2048x256 .f32) (x1 : Vec F S256x256 .f32) (x2 : Vec F S1x256 .f32) (x3 : Vec F S1x1 .f32) (x4 : Vec F S1024x2048 .f32) (xs0 : Vec F S8192x256 .f32) (xs1 : Vec F S1024x256 .f32)

/-! ## The band stored into the kept features (first row block) -/

theorem keptA (hc1 : cond1 i) (hc2 : cond2 i) (hc3 : cond3 i) (hc4 : ¬cond4 i) :
    (runA c i arg2 harg2 arg3 harg3 arg4 harg4 arg5 harg5 arg6 harg6 arg7 harg7 arg8 harg8 arg9 harg9 hc1 hc2 hc3 hc4 x0 x1 x2 x3 x4 xs0 xs1).1 = [⟨Rect.unit (s := S8192x256) (k0_off1 i) S2048x256.size (k0_off1_inb i hc1), k0_pay1 x0 x1⟩] := by
  unfold runA; dsimp only
  sl_unfold_run_names
  simp only [View.readAt_eq_ld, harg2.read_unread, harg3.read_unread,
    View.ld_unit_zero (S := S2048x256) zero2, View.ld_unit_zero (S := S256x256) zero2]
theorem keptB (hc1 : cond1 i) (hc2 : ¬cond2 i) (hc3 : cond3 i) (hc4 : ¬cond4 i) :
    (runB c i arg2 harg2 arg3 harg3 arg4 harg4 arg5 harg5 arg6 harg6 arg7 harg7 arg8 harg8 arg9 harg9 hc1 hc2 hc3 hc4 x0 x1 x2 x3 x4 xs0 xs1).1 = [⟨Rect.unit (s := S8192x256) (k0_off1 i) S2048x256.size (k0_off1_inb i hc1), k0_pay1 x0 x1⟩] := by
  unfold runB; dsimp only
  sl_unfold_run_names
  simp only [View.readAt_eq_ld, harg2.read_unread, harg3.read_unread,
    View.ld_unit_zero (S := S2048x256) zero2, View.ld_unit_zero (S := S256x256) zero2]
theorem keptC (hc1 : cond1 i) (hc2 : ¬cond2 i) (hc3 : ¬cond3 i) (hc4 : cond4 i) :
    (runC c i arg2 harg2 arg3 harg3 arg4 harg4 arg5 harg5 arg6 harg6 arg7 harg7 arg8 harg8 arg9 harg9 hc1 hc2 hc3 hc4 x0 x1 x2 x3 x4 xs0 xs1).2.1 = [⟨Rect.unit (s := S8192x256) (k0_off1 i) S2048x256.size (k0_off1_inb i hc1), k0_pay1 x0 x1⟩] := by
  unfold runC; dsimp only
  sl_unfold_run_names
  simp only [View.readAt_eq_ld, harg2.read_unread, harg3.read_unread,
    View.ld_unit_zero (S := S2048x256) zero2, View.ld_unit_zero (S := S256x256) zero2]

/-- Later row blocks store nothing into the kept features. -/
theorem keptD (hc1 : ¬cond1 i) (hc2 : ¬cond2 i) (hc3 : cond3 i) (hc4 : ¬cond4 i) : (runD c i arg2 harg2 arg3 harg3 arg4 harg4 arg5 harg5 arg6 harg6 arg7 harg7 arg8 harg8 arg9 harg9 hc1 hc2 hc3 hc4 x0 x1 x2 x3 x4 xs0 xs1).1 = [] := by
  rfl
theorem keptE (hc1 : ¬cond1 i) (hc2 : cond2 i) (hc3 : cond3 i) (hc4 : ¬cond4 i) : (runE c i arg2 harg2 arg3 harg3 arg4 harg4 arg5 harg5 arg6 harg6 arg7 harg7 arg8 harg8 arg9 harg9 hc1 hc2 hc3 hc4 x0 x1 x2 x3 x4 xs0 xs1).1 = [] := by
  rfl
theorem keptG (hc1 : ¬cond1 i) (hc2 : ¬cond2 i) (hc3 : ¬cond3 i) (hc4 : cond4 i) : (runG c i arg2 harg2 arg3 harg3 arg4 harg4 arg5 harg5 arg6 harg6 arg7 harg7 arg8 harg8 arg9 harg9 hc1 hc2 hc3 hc4 x0 x1 x2 x3 x4 xs0 xs1).2.1 = [] := by
  rfl
/-- A last chunk stores nothing into the accumulator. -/
theorem accC (hc1 : cond1 i) (hc2 : ¬cond2 i) (hc3 : ¬cond3 i) (hc4 : cond4 i) : (runC c i arg2 harg2 arg3 harg3 arg4 harg4 arg5 harg5 arg6 harg6 arg7 harg7 arg8 harg8 arg9 harg9 hc1 hc2 hc3 hc4 x0 x1 x2 x3 x4 xs0 xs1).2.2.1 = [] := by
  rfl
theorem accG (hc1 : ¬cond1 i) (hc2 : ¬cond2 i) (hc3 : ¬cond3 i) (hc4 : cond4 i) : (runG c i arg2 harg2 arg3 harg3 arg4 harg4 arg5 harg5 arg6 harg6 arg7 harg7 arg8 harg8 arg9 harg9 hc1 hc2 hc3 hc4 x0 x1 x2 x3 x4 xs0 xs1).2.2.1 = [] := by
  rfl

/-! ## The accumulator read back -/

theorem accA (hc1 : cond1 i) (hc2 : cond2 i) (hc3 : cond3 i) (hc4 : ¬cond4 i) :
    arg9.view.read (Elt F) (arg9.view.writes (Elt F) (harg9.unread xs1) (runA c i arg2 harg2 arg3 harg3 arg4 harg4 arg5 harg5 arg6 harg6 arg7 harg7 arg8 harg8 arg9 harg9 hc1 hc2 hc3 hc4 x0 x1 x2 x3 x4 xs0 xs1).2.1)
      = k0_pay4 x4 (k0_pay1 x0 x1) (k0_pay2 (F := F)) := by
  unfold runA; dsimp only
  sl_unfold_run_names
  rw [View.read_writes_eq_canon _ _ _ (coverWhole _ _)]
  rw [View.canon_cons_unit_zero (S := S1024x256) zero2]
  rw [readCov_last_of_off_eq arg8.view ((k0_off1_eq i).trans (k0_off2_eq i).symm)]
  simp only [View.readAt_eq_ld, harg2.read_unread, harg3.read_unread, harg6.read_unread,
    View.ld_unit_zero (S := S2048x256) zero2, View.ld_unit_zero (S := S256x256) zero2,
    View.ld_unit_zero (S := S1024x2048) zero2, View.readCov_unit_zero (S := S1024x256) _ zero2]
theorem accB (hc1 : cond1 i) (hc2 : ¬cond2 i) (hc3 : cond3 i) (hc4 : ¬cond4 i) :
    arg9.view.read (Elt F) (arg9.view.writes (Elt F) (harg9.unread xs1) (runB c i arg2 harg2 arg3 harg3 arg4 harg4 arg5 harg5 arg6 harg6 arg7 harg7 arg8 harg8 arg9 harg9 hc1 hc2 hc3 hc4 x0 x1 x2 x3 x4 xs0 xs1).2.1)
      = k0_pay4 x4 (k0_pay1 x0 x1) xs1 := by
  unfold runB; dsimp only
  sl_unfold_run_names
  rw [View.read_writes_eq_canon _ _ _ (coverWhole _ _)]
  rw [View.canon_unit_zero (S := S1024x256) zero2]
  rw [readCov_last_of_off_eq arg8.view ((k0_off1_eq i).trans (k0_off2_eq i).symm)]
  simp only [View.readAt_eq_ld, harg2.read_unread, harg3.read_unread, harg6.read_unread, harg9.read_unread,
    View.ld_unit_zero (S := S2048x256) zero2, View.ld_unit_zero (S := S256x256) zero2,
    View.ld_unit_zero (S := S1024x2048) zero2, View.ld_unit_zero (S := S1024x256) zero2]
theorem accD (hc1 : ¬cond1 i) (hc2 : ¬cond2 i) (hc3 : cond3 i) (hc4 : ¬cond4 i) :
    arg9.view.read (Elt F) (arg9.view.writes (Elt F) (harg9.unread xs1) (runD c i arg2 harg2 arg3 harg3 arg4 harg4 arg5 harg5 arg6 harg6 arg7 harg7 arg8 harg8 arg9 harg9 hc1 hc2 hc3 hc4 x0 x1 x2 x3 x4 xs0 xs1).2.1)
      = k0_pay4 x4 (View.ld xs0 (Rect.unit (s := S8192x256) (k0_off2 i) S2048x256.size (k0_off2_inb i))) xs1 := by
  unfold runD; dsimp only
  rw [View.read_writes_eq_canon _ _ _ (coverWhole _ _)]
  rw [View.canon_unit_zero (S := S1024x256) zero2]
  simp only [View.readAt_eq_ld, harg6.read_unread, harg8.read_unread, harg9.read_unread,
    View.ld_unit_zero (S := S1024x2048) zero2, View.ld_unit_zero (S := S1024x256) zero2]
theorem accE (hc1 : ¬cond1 i) (hc2 : cond2 i) (hc3 : cond3 i) (hc4 : ¬cond4 i) :
    arg9.view.read (Elt F) (arg9.view.writes (Elt F) (harg9.unread xs1) (runE c i arg2 harg2 arg3 harg3 arg4 harg4 arg5 harg5 arg6 harg6 arg7 harg7 arg8 harg8 arg9 harg9 hc1 hc2 hc3 hc4 x0 x1 x2 x3 x4 xs0 xs1).2.1)
      = k0_pay4 x4 (View.ld xs0 (Rect.unit (s := S8192x256) (k0_off2 i) S2048x256.size (k0_off2_inb i))) (k0_pay2 (F := F)) := by
  unfold runE; dsimp only
  sl_unfold_run_names
  rw [View.read_writes_eq_canon _ _ _ (coverWhole _ _)]
  rw [View.canon_cons_unit_zero (S := S1024x256) zero2]
  simp only [View.readAt_eq_ld, harg6.read_unread, harg8.read_unread,
    View.ld_unit_zero (S := S1024x2048) zero2, View.readCov_unit_zero (S := S1024x256) _ zero2]

/-! ## The output block read back (last chunk) -/

theorem outC (hc1 : cond1 i) (hc2 : ¬cond2 i) (hc3 : ¬cond3 i) (hc4 : cond4 i) (f : arg7.view.ty.Contents (Elt F)) :
    arg7.view.read (Elt F) (arg7.view.writes (Elt F) f (runC c i arg2 harg2 arg3 harg3 arg4 harg4 arg5 harg5 arg6 harg6 arg7 harg7 arg8 harg8 arg9 harg9 hc1 hc2 hc3 hc4 x0 x1 x2 x3 x4 xs0 xs1).1)
      = k0_pay5 x4 (k0_pay1 x0 x1) xs1 x2 x3 := by
  unfold runC; dsimp only
  sl_unfold_run_names
  rw [View.read_writes_eq_canon _ _ _ (coverWhole _ _)]
  rw [View.canon_unit_zero (S := S1024x256) zero2]
  rw [readCov_last_of_off_eq arg8.view ((k0_off1_eq i).trans (k0_off2_eq i).symm)]
  simp only [View.readAt_eq_ld, harg2.read_unread, harg3.read_unread, harg4.read_unread, harg5.read_unread,
    harg6.read_unread, harg9.read_unread,
    View.ld_unit_zero (S := S2048x256) zero2, View.ld_unit_zero (S := S256x256) zero2,
    View.ld_unit_zero (S := S1x256) zero2, View.ld_unit_zero (S := S1x1) zero2,
    View.ld_unit_zero (S := S1024x2048) zero2, View.ld_unit_zero (S := S1024x256) zero2]
theorem outG (hc1 : ¬cond1 i) (hc2 : ¬cond2 i) (hc3 : ¬cond3 i) (hc4 : cond4 i) (f : arg7.view.ty.Contents (Elt F)) :
    arg7.view.read (Elt F) (arg7.view.writes (Elt F) f (runG c i arg2 harg2 arg3 harg3 arg4 harg4 arg5 harg5 arg6 harg6 arg7 harg7 arg8 harg8 arg9 harg9 hc1 hc2 hc3 hc4 x0 x1 x2 x3 x4 xs0 xs1).1)
      = k0_pay5 x4 (View.ld xs0 (Rect.unit (s := S8192x256) (k0_off2 i) S2048x256.size (k0_off2_inb i))) xs1 x2 x3 := by
  unfold runG; dsimp only
  rw [View.read_writes_eq_canon _ _ _ (coverWhole _ _)]
  rw [View.canon_unit_zero (S := S1024x256) zero2]
  simp only [View.readAt_eq_ld, harg4.read_unread, harg5.read_unread, harg6.read_unread, harg8.read_unread,
    harg9.read_unread,
    View.ld_unit_zero (S := S1x256) zero2, View.ld_unit_zero (S := S1x1) zero2,
    View.ld_unit_zero (S := S1024x2048) zero2, View.ld_unit_zero (S := S1024x256) zero2]

end

end Cert.KernelIdeal.Body

end
-- ==== Proof.KernelIdealBody.Kept.lean ====
/-
  The kept features' invariant from point to point. On the first row block the body stores the point's feature chunk
  into its own band: that band then reads the chunk, and every band stored before still reads what it read. On later
  row blocks nothing is stored, and the band of the point's column chunk reads the chunk computed on the first row
  block.
-/
import proofs.«166933_g27788438405845_cont_9to1_712_7_alg».proof.Proof.KernelIdealBody.State
import proofs.«166933_g27788438405845_cont_9to1_712_7_alg».proof.Proof.LibRowBand

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The store and the loads of one point address the same band. -/
theorem off1_eq_off2 (i : grid0.Coords) : k0_off1 i = k0_off2 i := by rw [k0_off1_eq, k0_off2_eq]

/-- A first-row-block point stores its chunk into its band: the invariant extends to that point. -/
theorem kept_store (c : Dev nD) (t : Fin cfg0.N) (ht : t.val < 4) (xs0 : Vec F S8192x256 .f32) (hK : KeptOK m c t.val xs0)
    (arg8 : Memref sig .tc .vmem S8192x256 .f32) (harg8 : arg8.IsWhole)
    (inb : ∀ a, (k0_off1 (grid0.coords t)) a + S2048x256.size a ≤ S8192x256.size a) :
    KeptOK m c (t.val + 1) (arg8.view.read (Elt F) (arg8.view.writes (Elt F) (harg8.unread xs0)
      [⟨Rect.unit (s := S8192x256) (k0_off1 (grid0.coords t)) S2048x256.size inb, ftsC m c t⟩])) := by
  unfold KeptOK at hK ⊢
  intro t' ht' ht4
  -- on the first row block the column chunk of a point is the point itself, so both offset chains are row 2048 t
  have hcol : ∀ u : Fin cfg0.N, u.val < 4 → (grid0.coords u 1).val = u.val := fun u hu => by
    rw [coord1 u, Nat.mod_eq_of_lt hu]
  have hoff1 : k0_off1 (grid0.coords t) = ![2048 * t.val, 0] := by rw [k0_off1_eq (grid0.coords t), hcol t ht]
  have hoff2 : k0_off2 (grid0.coords t') = ![2048 * t'.val, 0] := by rw [k0_off2_eq (grid0.coords t'), hcol t' ht4]
  by_cases hEq : t' = t
  · -- the band just stored reads the stored chunk
    subst hEq
    exact RowBand.ld_write_same (R := 8192) (C := 256) (W := 2048) arg8 harg8 xs0 hoff1 hoff2 inb
      (k0_off2_inb (grid0.coords t')) (ftsC m c t')
  · -- an earlier band [2048 t', 2048 t' + 2048) lies below [2048 t, 2048 t + 2048) and reads what it read before
    have hne : t'.val ≠ t.val := fun h => hEq (Fin.ext h)
    have hlt : t'.val < t.val := by omega
    exact (RowBand.ld_write_other (R := 8192) (C := 256) (W := 2048) arg8 harg8 xs0 hoff1 hoff2 (by omega) inb
      (k0_off2_inb (grid0.coords t')) (ftsC m c t)).trans (hK t' hlt ht4)

/-- A later point stores nothing there: the invariant is kept as it is. -/
theorem kept_keep (c : Dev nD) (t : Fin cfg0.N) (ht : 4 ≤ t.val) (xs0 : Vec F S8192x256 .f32) (hK : KeptOK m c t.val xs0) :
    KeptOK m c (t.val + 1) xs0 := by
  unfold KeptOK at hK ⊢
  intro t' ht' ht4
  -- a first-row-block point is below 4 ≤ t already
  exact hK t' (by omega) ht4

/-- On a later row block the band of the point's column chunk holds the chunk computed on the first row block. -/
theorem kept_read (c : Dev nD) (t : Fin cfg0.N) (ht : 4 ≤ t.val) (xs0 : Vec F S8192x256 .f32) (hK : KeptOK m c t.val xs0) :
    View.ld xs0 (crect (grid0.coords t)) = ftsAt m c t := by
  unfold KeptOK at hK
  -- the point t mod 4 lies on the first row block and before t: its band holds its chunk
  have hc4 : (chunkPt t).val < 4 := by rw [chunkPt_val]; exact Nat.mod_lt _ (by decide)
  have hc : (chunkPt t).val < t.val := by omega
  have h := hK (chunkPt t) hc hc4
  unfold ftsAt
  rw [← h]
  -- the band depends on the column chunk only, and t and t mod 4 have the same one
  exact RowBand.ld_unit_congr xs0
    (by rw [k0_off2_eq (grid0.coords t), k0_off2_eq (grid0.coords (chunkPt t)), coord1 t, coord1 (chunkPt t),
      chunkPt_val, Nat.mod_mod])
    (k0_off2_inb (grid0.coords t)) (k0_off2_inb (grid0.coords (chunkPt t)))

end Cert.KernelIdeal.Body

end
-- ==== Proof.KernelIdealBody.Body.lean ====
/-
  The body obligation of the fused graph-convolution kernel, the run of @main and the frame. At every point the body
  is handed each input window's block, the output window's buffer, and through the invariant the two scratch buffers: the
  kept features with the bands of the chunks computed so far known, and the accumulator at what the point before left.
  By cases on the point (first row block or not; first, middle or last column chunk) the matching run applies, and the
  invariant is re-established: a first-row-block point extends the known bands by its own, a later one keeps them and
  reads its chunk from them; the accumulator is reset, carried or left; a last chunk leaves the output block.
-/
import proofs.«166933_g27788438405845_cont_9to1_712_7_alg».proof.Proof.KernelIdealBody.State
import proofs.«166933_g27788438405845_cont_9to1_712_7_alg».proof.Proof.KernelIdealBody.Pieces
import proofs.«166933_g27788438405845_cont_9to1_712_7_alg».proof.Proof.KernelIdealBody.Kept

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [Phi_eq m c t.castSucc, Phi_eq m c t.succ]
  simp only [Fin.coe_castSucc, Fin.val_succ]
  have hN : t.val < 32 := lt_of_lt_of_eq t.isLt (show cfg0.N = 32 from N_0)
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  by_cases h1 : t.val < 4
  · have hc1 : cond1 (grid0.coords t) := (hcond1 t).mpr h1
    by_cases h0 : t.val % 4 = 0
    · have hc2 : cond2 (grid0.coords t) := (hcond2 t).mpr h0
      have h3 : ¬t.val % 4 = 3 := by omega
      have hc3 : cond3 (grid0.coords t) := (hcond3 t).mpr h3
      have hc4 : ¬cond4 (grid0.coords t) := fun h => h3 ((hcond4 t).mp h)
      -- case A
      rw [Dat.leavesExact_idle (dats m 0 c) 5 t (idleAt5 t hc4) (noFlush5 t hc4)]
      unfold PhiS
      iintro ⟨⟨⟨⟨%xs0, %hK, HS0⟩, ⟨%xs1, %hA, HS1⟩⟩, Hg⟩, Ho, ⟨%d0, H0⟩, ⟨%d1, H1⟩, ⟨%d2, H2⟩, ⟨%d3, H3⟩, ⟨%d4, H4⟩, ⟨%d5, H5⟩⟩
      iapply ((runA c (grid0.coords t) (ms0 t) (hs0 t) (ms1 t) (hs1 t) (ms2 t) (hs2 t) (ms3 t) (hs3 t) (ms4 t) (hs4 t) (ms5 t) (hs5 t) scM0 hsc0 scM1 hsc1 hc1 hc2 hc3 hc4 (seqB m c t) (wB m c t) (biasB m c t) (aB m c t) (adjB m c t) xs0 xs1).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexists _; isplitr
            swap
            · unfold owns; iexists _; isplitr
              swap; · iexact HS0
              ipureintro; rfl
            ipureintro
            rw [keptA]; exact kept_store m c t h1 xs0 hK _ _ _
          · iexists _; isplitr
            swap
            · unfold owns; iexists _; isplitr
              swap; · iexact HS1
              ipureintro; rfl
            ipureintro
            rw [accA]
            intro _ _
            show _ = accAfter m c t.val t.isLt
            rw [accAfter_first m c t h0, ftsAt_of_lt m c t h1]
            try rfl
        · iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · have hc2 : ¬cond2 (grid0.coords t) := fun h => h0 ((hcond2 t).mp h)
      by_cases h3 : t.val % 4 = 3
      · have hc3 : ¬cond3 (grid0.coords t) := fun h => (hcond3 t).mp h h3
        have hc4 : cond4 (grid0.coords t) := (hcond4 t).mpr h3
        -- case C
        rw [show (dats m 0 c).leavesExact 5 t = owns (c : Thread nD τ) (ms5 t) fullShare ((dats m 0 c).after 5 t) from by
          unfold Dat.leavesExact; rw [liveAt5 t hc4], after5]
        unfold PhiS
        iintro ⟨⟨⟨⟨%xs0, %hK, HS0⟩, ⟨%xs1, %hA, HS1⟩⟩, Hg⟩, Ho, ⟨%d0, H0⟩, ⟨%d1, H1⟩, ⟨%d2, H2⟩, ⟨%d3, H3⟩, ⟨%d4, H4⟩, ⟨%d5, H5⟩⟩
        iapply ((runC c (grid0.coords t) (ms0 t) (hs0 t) (ms1 t) (hs1 t) (ms2 t) (hs2 t) (ms3 t) (hs3 t) (ms4 t) (hs4 t) (ms5 t) (hs5 t) scM0 hsc0 scM1 hsc1 hc1 hc2 hc3 hc4 (seqB m c t) (wB m c t) (biasB m c t) (aB m c t) (adjB m c t) xs0 xs1).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, H5, HS0, HS1⟩
        isplitl [HS0 HS1 Hg]
        · isplitl [HS0 HS1]
          · isplitl [HS0]
            · iexists _; isplitr
              swap
              · unfold owns; iexists _; isplitr
                swap; · iexact HS0
                ipureintro; rfl
              ipureintro
              rw [keptC]; exact kept_store m c t h1 xs0 hK _ _ _
            · iexists _; isplitr
              swap
              · unfold owns; iexists _; isplitr
                swap; · iexact HS1
                ipureintro; rfl
              ipureintro
              rw [accC, View.writes_nil, hsc1.read_unread]
              intro _ _
              show _ = accAfter m c t.val t.isLt
              rw [accAfter_last m c t h3]; exact hA (by omega) _
          · iexact Hg
        isplitl [Ho]; · iexact Ho
        isplitl [H0]; · iexact H0
        isplitl [H1]; · iexact H1
        isplitl [H2]; · iexact H2
        isplitl [H3]; · iexact H3
        isplitl [H4]; · iexact H4
        icases H5 with ⟨%f5, H5⟩
        unfold owns; iexists _; isplitr
        swap; · iexact H5
        ipureintro
        rw [outC]
        unfold outAt; rw [← hA (by omega) _, ftsAt_of_lt m c t h1]
        try rfl
      · have hc3 : cond3 (grid0.coords t) := (hcond3 t).mpr h3
        have hc4 : ¬cond4 (grid0.coords t) := fun h => h3 ((hcond4 t).mp h)
        -- case B
        rw [Dat.leavesExact_idle (dats m 0 c) 5 t (idleAt5 t hc4) (noFlush5 t hc4)]
        unfold PhiS
        iintro ⟨⟨⟨⟨%xs0, %hK, HS0⟩, ⟨%xs1, %hA, HS1⟩⟩, Hg⟩, Ho, ⟨%d0, H0⟩, ⟨%d1, H1⟩, ⟨%d2, H2⟩, ⟨%d3, H3⟩, ⟨%d4, H4⟩, ⟨%d5, H5⟩⟩
        iapply ((runB c (grid0.coords t) (ms0 t) (hs0 t) (ms1 t) (hs1 t) (ms2 t) (hs2 t) (ms3 t) (hs3 t) (ms4 t) (hs4 t) (ms5 t) (hs5 t) scM0 hsc0 scM1 hsc1 hc1 hc2 hc3 hc4 (seqB m c t) (wB m c t) (biasB m c t) (aB m c t) (adjB m c t) xs0 xs1).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, HS0, HS1⟩
        isplitl [HS0 HS1 Hg]
        · isplitl [HS0 HS1]
          · isplitl [HS0]
            · iexists _; isplitr
              swap
              · unfold owns; iexists _; isplitr
                swap; · iexact HS0
                ipureintro; rfl
              ipureintro
              rw [keptB]; exact kept_store m c t h1 xs0 hK _ _ _
            · iexists _; isplitr
              swap
              · unfold owns; iexists _; isplitr
                swap; · iexact HS1
                ipureintro; rfl
              ipureintro
              rw [accB]
              intro _ _
              show _ = accAfter m c t.val t.isLt
              rw [accAfter_mid m c t h0 h3, ftsAt_of_lt m c t h1, ← hA (by omega) _]
              try rfl
          · iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hc1 : ¬cond1 (grid0.coords t) := fun h => h1 ((hcond1 t).mp h)
    by_cases h0 : t.val % 4 = 0
    · have hc2 : cond2 (grid0.coords t) := (hcond2 t).mpr h0
      have h3 : ¬t.val % 4 = 3 := by omega
      have hc3 : cond3 (grid0.coords t) := (hcond3 t).mpr h3
      have hc4 : ¬cond4 (grid0.coords t) := fun h => h3 ((hcond4 t).mp h)
      -- case E
      rw [Dat.leavesExact_idle (dats m 0 c) 5 t (idleAt5 t hc4) (noFlush5 t hc4)]
      unfold PhiS
      iintro ⟨⟨⟨⟨%xs0, %hK, HS0⟩, ⟨%xs1, %hA, HS1⟩⟩, Hg⟩, Ho, ⟨%d0, H0⟩, ⟨%d1, H1⟩, ⟨%d2, H2⟩, ⟨%d3, H3⟩, ⟨%d4, H4⟩, ⟨%d5, H5⟩⟩
      iapply ((runE c (grid0.coords t) (ms0 t) (hs0 t) (ms1 t) (hs1 t) (ms2 t) (hs2 t) (ms3 t) (hs3 t) (ms4 t) (hs4 t) (ms5 t) (hs5 t) scM0 hsc0 scM1 hsc1 hc1 hc2 hc3 hc4 (seqB m c t) (wB m c t) (biasB m c t) (aB m c t) (adjB m c t) xs0 xs1).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexists _; isplitr
            swap
            · unfold owns; iexists _; isplitr
              swap; · iexact HS0
              ipureintro; rfl
            ipureintro
            rw [keptE, View.writes_nil, hsc0.read_unread]; exact kept_keep m c t (by omega) xs0 hK
          · iexists _; isplitr
            swap
            · unfold owns; iexists _; isplitr
              swap; · iexact HS1
              ipureintro; rfl
            ipureintro
            rw [accE]; rw [kept_read m c t (by omega) xs0 hK]
            intro _ _
            show _ = accAfter m c t.val t.isLt
            rw [accAfter_first m c t h0]
        · iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · have hc2 : ¬cond2 (grid0.coords t) := fun h => h0 ((hcond2 t).mp h)
      by_cases h3 : t.val % 4 = 3
      · have hc3 : ¬cond3 (grid0.coords t) := fun h => (hcond3 t).mp h h3
        have hc4 : cond4 (grid0.coords t) := (hcond4 t).mpr h3
        -- case G
        rw [show (dats m 0 c).leavesExact 5 t = owns (c : Thread nD τ) (ms5 t) fullShare ((dats m 0 c).after 5 t) from by
          unfold Dat.leavesExact; rw [liveAt5 t hc4], after5]
        unfold PhiS
        iintro ⟨⟨⟨⟨%xs0, %hK, HS0⟩, ⟨%xs1, %hA, HS1⟩⟩, Hg⟩, Ho, ⟨%d0, H0⟩, ⟨%d1, H1⟩, ⟨%d2, H2⟩, ⟨%d3, H3⟩, ⟨%d4, H4⟩, ⟨%d5, H5⟩⟩
        iapply ((runG c (grid0.coords t) (ms0 t) (hs0 t) (ms1 t) (hs1 t) (ms2 t) (hs2 t) (ms3 t) (hs3 t) (ms4 t) (hs4 t) (ms5 t) (hs5 t) scM0 hsc0 scM1 hsc1 hc1 hc2 hc3 hc4 (seqB m c t) (wB m c t) (biasB m c t) (aB m c t) (adjB m c t) xs0 xs1).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, H5, HS0, HS1⟩
        isplitl [HS0 HS1 Hg]
        · isplitl [HS0 HS1]
          · isplitl [HS0]
            · iexists _; isplitr
              swap
              · unfold owns; iexists _; isplitr
                swap; · iexact HS0
                ipureintro; rfl
              ipureintro
              rw [keptG, View.writes_nil, hsc0.read_unread]; exact kept_keep m c t (by omega) xs0 hK
            · iexists _; isplitr
              swap
              · unfold owns; iexists _; isplitr
                swap; · iexact HS1
                ipureintro; rfl
              ipureintro
              rw [accG, View.writes_nil, hsc1.read_unread]
              intro _ _
              show _ = accAfter m c t.val t.isLt
              rw [accAfter_last m c t h3]; exact hA (by omega) _
          · iexact Hg
        isplitl [Ho]; · iexact Ho
        isplitl [H0]; · iexact H0
        isplitl [H1]; · iexact H1
        isplitl [H2]; · iexact H2
        isplitl [H3]; · iexact H3
        isplitl [H4]; · iexact H4
        icases H5 with ⟨%f5, H5⟩
        unfold owns; iexists _; isplitr
        swap; · iexact H5
        ipureintro
        rw [outG]; rw [kept_read m c t (by omega) xs0 hK]
        unfold outAt; rw [← hA (by omega) _]
      · have hc3 : cond3 (grid0.coords t) := (hcond3 t).mpr h3
        have hc4 : ¬cond4 (grid0.coords t) := fun h => h3 ((hcond4 t).mp h)
        -- case D
        rw [Dat.leavesExact_idle (dats m 0 c) 5 t (idleAt5 t hc4) (noFlush5 t hc4)]
        unfold PhiS
        iintro ⟨⟨⟨⟨%xs0, %hK, HS0⟩, ⟨%xs1, %hA, HS1⟩⟩, Hg⟩, Ho, ⟨%d0, H0⟩, ⟨%d1, H1⟩, ⟨%d2, H2⟩, ⟨%d3, H3⟩, ⟨%d4, H4⟩, ⟨%d5, H5⟩⟩
        iapply ((runD c (grid0.coords t) (ms0 t) (hs0 t) (ms1 t) (hs1 t) (ms2 t) (hs2 t) (ms3 t) (hs3 t) (ms4 t) (hs4 t) (ms5 t) (hs5 t) scM0 hsc0 scM1 hsc1 hc1 hc2 hc3 hc4 (seqB m c t) (wB m c t) (biasB m c t) (aB m c t) (adjB m c t) xs0 xs1).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, HS0, HS1⟩
        isplitl [HS0 HS1 Hg]
        · isplitl [HS0 HS1]
          · isplitl [HS0]
            · iexists _; isplitr
              swap
              · unfold owns; iexists _; isplitr
                swap; · iexact HS0
                ipureintro; rfl
              ipureintro
              rw [keptD, View.writes_nil, hsc0.read_unread]; exact kept_keep m c t (by omega) xs0 hK
            · iexists _; isplitr
              swap
              · unfold owns; iexists _; isplitr
                swap; · iexact HS1
                ipureintro; rfl
              ipureintro
              rw [accD]; rw [kept_read m c t (by omega) xs0 hK]
              intro _ _
              show _ = accAfter m c t.val t.isLt
              rw [accAfter_mid m c t h0 h3, ← hA (by omega) _]
          · iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no band is known yet and nothing is said
    of the accumulator. -/
theorem hin (c : Dev nD) : Pipeline.ΦA spec0 c ⊢ (dats m 0 c).Φ 0 := by
  rw [Phi_eq m c 0, PhiA0_eq]
  unfold PhiS
  iintro ⟨⟨⟨%d0, HS0⟩, ⟨%d1, HS1⟩⟩, Hg⟩
  isplitl [HS0 HS1]
  · isplitl [HS0]
    · iexists d0; isplitr; · ipureintro; exact fun t' h => absurd h (Nat.not_lt_zero _)
      iexact HS0
    · iexists d1; isplitr; · ipureintro; exact fun h => absurd rfl h
      iexact HS1
  iexact Hg

/-- After the last point the invariant gives the class's back: what the scratch buffers hold is forgotten. -/
theorem hout (c : Dev nD) : (dats m 0 c).Φ (Fin.last cfg0.N) ⊢ Pipeline.ΦA spec0 c := by
  rw [Phi_eq m c (Fin.last cfg0.N), PhiA0_eq]
  unfold PhiS
  iintro ⟨⟨⟨%S, -, HS0⟩, ⟨%X, -, HS1⟩⟩, Hg⟩
  isplitl [HS0 HS1]
  · isplitl [HS0]
    · iexists _; iexact HS0
    · iexists _; iexact HS1
  iexact Hg

set_option backward.isDefEq.respectTransparency.types false in
/-- Every weakly fair execution of @main on the TensorCores terminates, and every final state has every array of the
    pipeline at what the library computes from the proof data and every other unscoped buffer as the line after the
    region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere and leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.Spec.lean ====
/-
  The specification both programs meet at the exact instance, over the five argument arrays: a node-feature array
  seq [1, 8192, 256], a dense adjacency adj [1, 8192, 8192], a weight matrix W [256, 256], a bias [256] and one slope a [1].
  The transformed features are  fts (n, o) = ∑ f, seq (0, n, f) · W (o, f);  the aggregated value is
  agg (i, o) = ∑ j, adj (0, i, j) · fts (j, o);  the result at (0, i, o) is the leaky rectifier of agg (i, o) + bias o with
  slope a: the value itself where it compares at least zero, a times it elsewhere (the comparison and the choice as
  the exact instance reads them).
-/
import Idealize.ShloMosaic.Lib.ValueIdx
import Idealize.ShloMosaic.PureOps.Ideal.Laws

noncomputable section

namespace Cert.Spec

open Idealize.ShloMosaic Idealize.ShloMosaic.ValueIdx

abbrev SeqS : Shape := ⟨3, ![1, 8192, 256]⟩
abbrev AdjS : Shape := ⟨3, ![1, 8192, 8192]⟩
abbrev WS : Shape := ⟨2, ![256, 256]⟩
abbrev BiasS : Shape := ⟨1, ![256]⟩
abbrev SlopeS : Shape := ⟨1, ![1]⟩

/-- The transformed features: row n of seq against row o of W. -/
def fts (seq : FVec Ideal SeqS .f32) (W : FVec Ideal WS .f32) (n : Fin 8192) (o : Fin 256) : Ideal .f32 :=
  ∑ f : Fin 256, seq (ix3 (0 : Fin 1) n f) * W (ix2 o f)

/-- The aggregated features: row i of the adjacency against column o of the transformed features. -/
def agg (seq : FVec Ideal SeqS .f32) (adj : FVec Ideal AdjS .f32) (W : FVec Ideal WS .f32) (i : Fin 8192) (o : Fin 256) : Ideal .f32 :=
  ∑ j : Fin 8192, adj (ix3 (0 : Fin 1) i j) * fts seq W j o

/-- The leaky rectifier with slope a, as the exact instance reads the comparison with zero and the choice. -/
def leaky (a x : Ideal .f32) : Ideal .f32 :=
  Scalar.select (FloatOps.cmpf (F := Ideal) .oge x (Ideal.ofBits .f32 0x00000000#32)) x (a * x)

/-- The result array. -/
def G (seq : FVec Ideal SeqS .f32) (adj : FVec Ideal AdjS .f32) (W : FVec Ideal WS .f32) (bias : FVec Ideal BiasS .f32)
    (a : FVec Ideal SlopeS .f32) : FVec Ideal SeqS .f32 :=
  fun y => leaky (a (ix1 (0 : Fin 1))) (agg seq adj W (y 1) (y 2) + bias (ix1 (y 2)))

end Cert.Spec

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.LibMatmulTransposedRhs.lean ====
/-
  A general lemma. The matrix product of an [M, K] array by the TRANSPOSE of an [N, K] array (both operands
  contracted on their second axis, no batch axes), accumulated into the zero array and read at the exact
  instance, is at entry (p, q) the finite sum over the contraction coordinate k of left (p, k) · right (q, k).
  It holds for all sizes and both operands' formats.
-/
import Idealize.ShloMosaic.Lib.ValueIdx
import Idealize.ShloMosaic.PureOps.Ideal.Laws

namespace Idealize.ShloMosaic.MatmulTransposedRhs

open Idealize.ShloMosaic Idealize.ShloMosaic.ValueIdx

variable {M K N : ℕ}

/-- The left operand's row coordinate is the result's row coordinate. -/
theorem lhs_row (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction coordinate. -/
theorem lhs_col (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row coordinate is the result's column coordinate. -/
theorem rhs_row (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction coordinate. -/
theorem rhs_col (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- Entry (p, q) of the product by the transpose, into a zero accumulator, is ∑ k, left (p, k) · right (q, k). -/
theorem matmul_zero_apply {φ₁ φ₂ : FTy} (prec : Option ContractPrecision)
    (l : FVec Ideal ⟨2, ![M, K]⟩ φ₁) (r : FVec Ideal ⟨2, ![N, K]⟩ φ₂) (p : Fin M) (q : Fin N) :
    matmul (DotDims.transposedRhs M K N) prec l r (constant ⟨2, ![M, N]⟩ .f32 0x00000000#32) (ix2 p q)
      = ∑ k : Fin K, l (ix2 p k) * r (ix2 q k) := by
  show FloatOps.matmul (DotDims.transposedRhs M K N) prec l r (constant ⟨2, ![M, N]⟩ .f32 0x00000000#32) (ix2 p q) = _
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

end Idealize.ShloMosaic.MatmulTransposedRhs
-- ==== Proof.KernelIdealValue.Payloads.lean ====
/-
  The body's payloads read at an entry, at the exact instance, over blocks of the literal shapes. The feature chunk is a
  product by the transpose of the weights: entry (r, o) is the sum over f of x0 (r, f) · x1 (o, f). The accumulator's
  update adds to entry (r, o) the plain product's entry, the sum over j of x4 (r, j) · x7 (j, o); the reset value is
  zero; the output adds the bias of column o and applies the leaky rectifier with the slope.
-/
import proofs.«166933_g27788438405845_cont_9to1_712_7_alg».proof.Proof.Gen.KernelIdeal.Skeleton
import proofs.«166933_g27788438405845_cont_9to1_712_7_alg».proof.Proof.Spec
import proofs.«166933_g27788438405845_cont_9to1_712_7_alg».proof.Proof.LibMatmulPlain
import proofs.«166933_g27788438405845_cont_9to1_712_7_alg».proof.Proof.LibMatmulTransposedRhs
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

/-- The record of the first product is the library's product by a transpose: the six lists are the same. -/
theorem dot_featureChunk_eq :
    dot_S2048x256_S256x256_S2048x256_1_1_0_0_n_n = DotDims.transposedRhs 2048 256 256 := rfl

/-- The record of the second product is the library's plain product: the six lists are the same. -/
theorem dot_aggregate_eq :
    dot_S1024x2048_S2048x256_S1024x256_1_0_0_1_n_n = DotDims.plain 1024 2048 256 := rfl

/-- The accumulator's update before its identity cast: the old entry plus the plain product's entry. -/
theorem pay3_apply (x4 : Vec Ideal S1024x2048 .f32) (x7 : Vec Ideal S2048x256 .f32) (x12 : Vec Ideal S1024x256 .f32)
    (r : Fin 1024) (o : Fin 256) :
    k0_pay3 (F := Ideal) x4 x7 x12 (ix2 r o) = x12 (ix2 r o) + ∑ j : Fin 2048, x4 (ix2 r j) * x7 (ix2 j o) := by
  unfold k0_pay3
  show x12 (ix2 r o) + matmul (F := Ideal) dot_S1024x2048_S2048x256_S1024x256_1_0_0_1_n_n none
      (shapeCast S1024x2048 x4 shapeCasts_S1024x2048_S1024x2048) x7 (constant (F := Ideal) S1024x256 .f32 0x00000000#32) (ix2 r o) = _
  rw [shapeCast_self, dot_aggregate_eq]
  exact congrArg (x12 (ix2 r o) + ·) (MatmulPlain.matmul_zero_apply none x4 x7 r o)

theorem pay1_apply (x0 : Vec Ideal S2048x256 .f32) (x1 : Vec Ideal S256x256 .f32) (r : Fin 2048) (o : Fin 256) :
    k0_pay1 (F := Ideal) x0 x1 (ix2 r o) = ∑ f : Fin 256, x0 (ix2 r f) * x1 (ix2 o f) := by
  unfold k0_pay1
  rw [shapeCast_self, shapeCast_self, dot_featureChunk_eq]
  exact MatmulTransposedRhs.matmul_zero_apply none x0 x1 r o

theorem pay2_apply (r : Fin 1024) (o : Fin 256) : k0_pay2 (F := Ideal) (ix2 r o) = (0 : EReal) := by
  unfold k0_pay2
  rw [shapeCast_self]
  exact Ideal.ofBits_zero_f32

theorem pay4_apply (x4 : Vec Ideal S1024x2048 .f32) (x7 : Vec Ideal S2048x256 .f32) (x12 : Vec Ideal S1024x256 .f32)
    (r : Fin 1024) (o : Fin 256) :
    k0_pay4 (F := Ideal) x4 x7 x12 (ix2 r o) = x12 (ix2 r o) + ∑ j : Fin 2048, x4 (ix2 r j) * x7 (ix2 j o) := by
  unfold k0_pay4
  rw [shapeCast_self]
  exact pay3_apply x4 x7 x12 r o

theorem pay5_apply (x4 : Vec Ideal S1024x2048 .f32) (x7 : Vec Ideal S2048x256 .f32) (x12 : Vec Ideal S1024x256 .f32)
    (x2 : Vec Ideal S1x256 .f32) (x3 : Vec Ideal S1x1 .f32) (r : Fin 1024) (o : Fin 256) :
    k0_pay5 (F := Ideal) x4 x7 x12 x2 x3 (ix2 r o)
      = Cert.Spec.leaky (x3 (ix2 (0 : Fin 1) (0 : Fin 1)))
          ((x12 (ix2 r o) + ∑ j : Fin 2048, x4 (ix2 r j) * x7 (ix2 j o)) + x2 (ix2 (0 : Fin 1) o)) := by
  have slope : extractAt ![0, 0] x3 inpos_S1x1_p0_0 = x3 (ix2 (0 : Fin 1) (0 : Fin 1)) :=
    congrArg x3 (funext fun a => Fin.ext (by match a with | ⟨0, _⟩ => rfl | ⟨1, _⟩ => rfl))
  unfold k0_pay5
  rw [shapeCast_self]
  show Scalar.select (FloatOps.cmpf (F := Ideal) .oge
        (k0_pay3 (F := Ideal) x4 x7 x12 (ix2 r o) + broadcastTo S1024x256 x2 broadcasts_S1x256_S1024x256 (ix2 r o))
        (Ideal.ofBits .f32 0x00000000#32))
      (k0_pay3 (F := Ideal) x4 x7 x12 (ix2 r o) + broadcastTo S1024x256 x2 broadcasts_S1x256_S1024x256 (ix2 r o))
      (extractAt ![0, 0] x3 inpos_S1x1_p0_0
        * (k0_pay3 (F := Ideal) x4 x7 x12 (ix2 r o) + broadcastTo S1024x256 x2 broadcasts_S1x256_S1024x256 (ix2 r o))) = _
  rw [slope, pay3_apply, broadcastTo_1b_ab_apply]
  rfl

end Cert.KernelIdeal.Val

end
-- ==== Proof.KernelIdealValue.Blocks.lean ====
/-
  The windows' blocks read at an entry in terms of the five argument arrays as launched. The host lines before the region
  only drop the unit axis of seq and adj and add one to bias and the slope, so the sequence block of a first-row-block
  point t is rows [2048 t, 2048 t + 2048) of seq, the adjacency block of point t = 4 i + k is rows [1024 i, 1024 i + 1024)
  and columns [2048 k, 2048 k + 2048) of adj, and the weights, the bias row and the slope are the arguments themselves.
-/
import proofs.«166933_g27788438405845_cont_9to1_712_7_alg».proof.Proof.KernelIdealBody.State
import proofs.«166933_g27788438405845_cont_9to1_712_7_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx Idealize.SL.Sem

variable (m : (ℓ : Loc nD τ sig) → Buf (Elt Ideal) ℓ)

/-! ## The argument arrays as launched, at their literal types -/

abbrev argSeq (c : Dev nD) : FVec Ideal Cert.Spec.SeqS .f32 := m ((c.tc : Thread nD τ).loc main_arg0)
abbrev argAdj (c : Dev nD) : FVec Ideal Cert.Spec.AdjS .f32 := m ((c.tc : Thread nD τ).loc main_arg1)
abbrev argW (c : Dev nD) : FVec Ideal Cert.Spec.WS .f32 := m ((c.tc : Thread nD τ).loc main_arg2)
abbrev argBias (c : Dev nD) : FVec Ideal Cert.Spec.BiasS .f32 := m ((c.tc : Thread nD τ).loc main_arg3)
abbrev argA (c : Dev nD) : FVec Ideal Cert.Spec.SlopeS .f32 := m ((c.tc : Thread nD τ).loc main_arg4)

/-- Row 2048 t + r of seq, for a first-row-block point t. -/
def seqRow (t : Fin cfg0.N) (ht : t.val < 4) (r : Fin 2048) : Fin 8192 := ⟨2048 * t.val + r.val, by have := r.isLt; omega⟩
/-- Row 1024 (t / 4) + r of adj. -/
def adjRow (t : Fin cfg0.N) (r : Fin 1024) : Fin 8192 := ⟨1024 * (t.val / 4) + r.val, by have := r.isLt; have h : cfg0.N = 32 := N_0; have := t.isLt; omega⟩
/-- Column 2048 (t mod 4) + j of adj. -/
def adjCol (t : Fin cfg0.N) (j : Fin 2048) : Fin 8192 := ⟨2048 * (t.val % 4) + j.val, by have := j.isLt; omega⟩

/-! ## The printed index maps, decided once over the grid -/

/-- The sequence window's block index on the first row block is (t, 0). -/
theorem seqIdx : ∀ t : Fin cfg0.N, t.val < 4 → win0_0.index t (0 : Fin 2) = t.val ∧ win0_0.index t (1 : Fin 2) = 0 :=
  (by decide +kernel : ∀ t : Fin grid0.N, t.val < 4 → win0_0.index t (0 : Fin 2) = t.val ∧ win0_0.index t (1 : Fin 2) = 0)
/-- The weights' block index is (0, 0) at every point. -/
theorem wIdx : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- So is the bias row's. -/
theorem biasIdx : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- And the slope's. -/
theorem aIdx : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- The adjacency window's block index at point t is (t div 4, t mod 4). -/
theorem adjIdx : ∀ t : Fin cfg0.N, win0_4.index t (0 : Fin 2) = t.val / 4 ∧ win0_4.index t (1 : Fin 2) = t.val % 4 :=
  (by decide +kernel : ∀ t : Fin grid0.N, win0_4.index t (0 : Fin 2) = t.val / 4 ∧ win0_4.index t (1 : Fin 2) = t.val % 4)

/-! ## The windows' arrays as the region finds them -/

/-- The sequence window's array is seq with its unit axis dropped. -/
theorem V_seq (c : Dev nD) (r : Fin 8192) (f : Fin 256) :
    (V m c main_v0 : S8192x256.Idx → Elt Ideal .f32) (ix2 r f) = argSeq m c (ix3 (0 : Fin 1) r f) := by
  have e : (V m c main_v0 : S8192x256.Idx → Elt Ideal .f32)
      = shapeCast S8192x256 (argSeq m c) shapeCasts_S1x8192x256_S8192x256 := by
    show StableHlo.after hostOps0 (fun b => m (c, b)) (Proc.devRef .tc main_v0) = _
    after_results
    rfl
  rw [e]
  exact shapeCast_apply _ _ (ix2 r f) (ix3 (0 : Fin 1) r f) (by
    rw [Shape.rowMajor_val_three, Shape.rowMajor_val_two]
    show ((0 : Fin 1).val * 8192 + r.val) * 256 + f.val = r.val * 256 + f.val
    simp)

/-- The adjacency window's array is adj with its unit axis dropped. -/
theorem V_adj (c : Dev nD) (r : Fin 8192) (j : Fin 8192) :
    (V m c main_v1 : S8192x8192.Idx → Elt Ideal .f32) (ix2 r j) = argAdj m c (ix3 (0 : Fin 1) r j) := by
  have e : (V m c main_v1 : S8192x8192.Idx → Elt Ideal .f32)
      = shapeCast S8192x8192 (argAdj m c) shapeCasts_S1x8192x8192_S8192x8192 := by
    show StableHlo.after hostOps0 (fun b => m (c, b)) (Proc.devRef .tc main_v1) = _
    after_results
    rfl
  rw [e]
  exact shapeCast_apply _ _ (ix2 r j) (ix3 (0 : Fin 1) r j) (by
    rw [Shape.rowMajor_val_three, Shape.rowMajor_val_two]
    show ((0 : Fin 1).val * 8192 + r.val) * 8192 + j.val = r.val * 8192 + j.val
    simp)

/-- The bias window's array is the bias as one row. -/
theorem V_bias (c : Dev nD) (o : Fin 256) :
    (V m c main_v2 : S1x256.Idx → Elt Ideal .f32) (ix2 (0 : Fin 1) o) = argBias m c (ix1 o) := by
  have e : (V m c main_v2 : S1x256.Idx → Elt Ideal .f32)
      = shapeCast S1x256 (argBias m c) shapeCasts_S256_S1x256 := by
    show StableHlo.after hostOps0 (fun b => m (c, b)) (Proc.devRef .tc main_v2) = _
    after_results
    rfl
  rw [e]
  exact shapeCast_apply _ _ (ix2 (0 : Fin 1) o) (ix1 o) (by
    rw [Shape.rowMajor_val_one, Shape.rowMajor_val_two]
    show o.val = (0 : Fin 1).val * 256 + o.val
    simp)

/-- The slope window's array is the slope as a one by one array. -/
theorem V_a (c : Dev nD) :
    (V m c main_v3 : S1x1.Idx → Elt Ideal .f32) (ix2 (0 : Fin 1) (0 : Fin 1)) = argA m c (ix1 (0 : Fin 1)) := by
  have e : (V m c main_v3 : S1x1.Idx → Elt Ideal .f32)
      = shapeCast S1x1 (argA m c) shapeCasts_S1_S1x1 := by
    show StableHlo.after hostOps0 (fun b => m (c, b)) (Proc.devRef .tc main_v3) = _
    after_results
    rfl
  rw [e]
  exact shapeCast_apply _ _ (ix2 (0 : Fin 1) (0 : Fin 1)) (ix1 (0 : Fin 1)) (by
    rw [Shape.rowMajor_val_one, Shape.rowMajor_val_two]
    rfl)

/-! ## The blocks at an entry -/

theorem seqB_apply (c : Dev nD) (t : Fin cfg0.N) (ht : t.val < 4) (r : Fin 2048) (f : Fin 256) :
    seqB m c t (ix2 r f) = argSeq m c (ix3 (0 : Fin 1) (seqRow t ht r) f) := by
  obtain ⟨e0, e1⟩ := seqIdx t ht
  show iblk m c 0 t (ix2 r f) = _
  unfold iblk
  rw [View.read_apply]
  show (V m c main_v0 : S8192x256.Idx → Elt Ideal .f32) (((cfg0.win 0).blk t).view.emb (ix2 r f)) = _
  have h : (((cfg0.win 0).blk t).view.emb (ix2 r f) : S8192x256.Idx) = ix2 (seqRow t ht r) f := by
    funext a; apply Fin.ext
    match a with
    | ⟨0, _⟩ => show win0_0.index t (0 : Fin 2) * 2048 + 1 * r.val = 2048 * t.val + r.val; rw [e0]; omega
    | ⟨1, _⟩ => show win0_0.index t (1 : Fin 2) * 256 + 1 * f.val = f.val; rw [e1]; omega
  rw [h, V_seq]

theorem wB_apply (c : Dev nD) (t : Fin cfg0.N) (o f : Fin 256) : wB m c t (ix2 o f) = argW m c (ix2 o f) := by
  obtain ⟨e0, e1⟩ := wIdx t
  show iblk m c 1 t (ix2 o f) = _
  unfold iblk
  rw [View.read_apply]
  show (V m c main_arg2 : S256x256.Idx → Elt Ideal .f32) (((cfg0.win 1).blk t).view.emb (ix2 o f)) = _
  have h : (((cfg0.win 1).blk t).view.emb (ix2 o f) : S256x256.Idx) = ix2 o f := by
    funext a; apply Fin.ext
    match a with
    | ⟨0, _⟩ => show win0_1.index t (0 : Fin 2) * 256 + 1 * o.val = o.val; rw [e0]; omega
    | ⟨1, _⟩ => show win0_1.index t (1 : Fin 2) * 256 + 1 * f.val = f.val; rw [e1]; omega
  rw [h, V_main_arg2]

theorem biasB_apply (c : Dev nD) (t : Fin cfg0.N) (o : Fin 256) : biasB m c t (ix2 (0 : Fin 1) o) = argBias m c (ix1 o) := by
  obtain ⟨e0, e1⟩ := biasIdx t
  show iblk m c 2 t (ix2 (0 : Fin 1) o) = _
  unfold iblk
  rw [View.read_apply]
  show (V m c main_v2 : S1x256.Idx → Elt Ideal .f32) (((cfg0.win 2).blk t).view.emb (ix2 (0 : Fin 1) o)) = _
  have h : (((cfg0.win 2).blk t).view.emb (ix2 (0 : Fin 1) o) : S1x256.Idx) = ix2 (0 : Fin 1) o := by
    funext a; apply Fin.ext
    match a with
    | ⟨0, _⟩ => show win0_2.index t (0 : Fin 2) * 1 + 1 * (0 : Fin 1).val = (0 : Fin 1).val; rw [e0]; rfl
    | ⟨1, _⟩ => show win0_2.index t (1 : Fin 2) * 256 + 1 * o.val = o.val; rw [e1]; omega
  rw [h, V_bias]

theorem aB_apply (c : Dev nD) (t : Fin cfg0.N) : aB m c t (ix2 (0 : Fin 1) (0 : Fin 1)) = argA m c (ix1 (0 : Fin 1)) := by
  obtain ⟨e0, e1⟩ := aIdx t
  show iblk m c 3 t (ix2 (0 : Fin 1) (0 : Fin 1)) = _
  unfold iblk
  rw [View.read_apply]
  show (V m c main_v3 : S1x1.Idx → Elt Ideal .f32) (((cfg0.win 3).blk t).view.emb (ix2 (0 : Fin 1) (0 : Fin 1))) = _
  have h : (((cfg0.win 3).blk t).view.emb (ix2 (0 : Fin 1) (0 : Fin 1)) : S1x1.Idx) = ix2 (0 : Fin 1) (0 : Fin 1) := by
    funext a; apply Fin.ext
    match a with
    | ⟨0, _⟩ => show win0_3.index t (0 : Fin 2) * 1 + 1 * (0 : Fin 1).val = (0 : Fin 1).val; rw [e0]; rfl
    | ⟨1, _⟩ => show win0_3.index t (1 : Fin 2) * 1 + 1 * (0 : Fin 1).val = (0 : Fin 1).val; rw [e1]; rfl
  rw [h, V_a]

theorem adjB_apply (c : Dev nD) (t : Fin cfg0.N) (r : Fin 1024) (j : Fin 2048) :
    adjB m c t (ix2 r j) = argAdj m c (ix3 (0 : Fin 1) (adjRow t r) (adjCol t j)) := by
  obtain ⟨e0, e1⟩ := adjIdx t
  show iblk m c 4 t (ix2 r j) = _
  unfold iblk
  rw [View.read_apply]
  show (V m c main_v1 : S8192x8192.Idx → Elt Ideal .f32) (((cfg0.win 4).blk t).view.emb (ix2 r j)) = _
  have h : (((cfg0.win 4).blk t).view.emb (ix2 r j) : S8192x8192.Idx) = ix2 (adjRow t r) (adjCol t j) := by
    funext a; apply Fin.ext
    match a with
    | ⟨0, _⟩ => show win0_4.index t (0 : Fin 2) * 1024 + 1 * r.val = 1024 * (t.val / 4) + r.val; rw [e0]; omega
    | ⟨1, _⟩ => show win0_4.index t (1 : Fin 2) * 2048 + 1 * j.val = 2048 * (t.val % 4) + j.val; rw [e1]; omega
  rw [h, V_adj]

end Cert.KernelIdeal.Val

end
-- ==== Proof.LibSumTiles.lean ====
/-
  A general lemma. A finite sum over the T·K indices of a tiled axis is the sum, over the T tiles, of each tile's sum
  over its K indices, index K·s + kk being index kk of tile s. It holds in any commutative additive monoid, so in
  particular over the extended reals, where no finiteness is needed to regroup a sum.
-/
import Mathlib.Algebra.BigOperators.Fin
import Mathlib.Logic.Equiv.Fin.Basic

namespace Cert.SumTiles

/-- Index `kk` of tile `s`. -/
def at_ {T K : ℕ} (s : Fin T) (kk : Fin K) : Fin (T * K) :=
  ⟨K * s.val + kk.val, by
    have hs := s.isLt; have hk := kk.isLt
    calc K * s.val + kk.val < K * s.val + K := Nat.add_lt_add_left hk _
      _ = K * (s.val + 1) := by rw [Nat.mul_succ]
      _ ≤ K * T := Nat.mul_le_mul_left _ hs
      _ = T * K := Nat.mul_comm _ _⟩

theorem at_val {T K : ℕ} (s : Fin T) (kk : Fin K) : (at_ s kk).val = K * s.val + kk.val := rfl

/-- A sum over a tiled axis, tile by tile. -/
theorem sum_tiles {M : Type*} [AddCommMonoid M] (T K : ℕ) (g : Fin (T * K) → M) :
    ∑ k : Fin (T * K), g k = ∑ s : Fin T, ∑ kk : Fin K, g (at_ s kk) := by
  rw [← Equiv.sum_comp finProdFinEquiv g, Fintype.sum_prod_type]
  refine Finset.sum_congr rfl fun s _ => Finset.sum_congr rfl fun kk _ => congrArg g (Fin.ext ?_)
  show kk.val + K * s.val = K * s.val + kk.val
  exact Nat.add_comm _ _

end Cert.SumTiles
-- ==== Proof.KernelIdealValue.Closed.lean ====
/-
  The output block of a last-chunk point in closed form. Point t = 4 i + 3 forms, at entry (r, o), the leaky rectifier of
  the bias of column o plus the four chunks' products summed: the accumulator the three points before built over zero,
  plus this point's product. Each product's entry is a sum over the 2048 columns of one chunk of the adjacency row
  1024 i + r against the kept features, and a kept feature entry is the sum over f of a row of seq against a row of the
  weights; the four chunk sums are one sum over the 8192 columns (a sum over a tiled axis taken tile by tile, which
  needs only that addition on the extended reals is commutative and associative). So the entry is the
  specification's at (0, 1024 i + r, o).
-/
import proofs.«166933_g27788438405845_cont_9to1_712_7_alg».proof.Proof.KernelIdealValue.Payloads
import proofs.«166933_g27788438405845_cont_9to1_712_7_alg».proof.Proof.KernelIdealValue.Blocks
import proofs.«166933_g27788438405845_cont_9to1_712_7_alg».proof.Proof.LibSumTiles

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx Idealize.SL.Sem

variable (m : (ℓ : Loc nD τ sig) → Buf (Elt Ideal) ℓ)

namespace Closed

/-! ## Columns by chunk, rows by row block -/

/-- Column 2048 s + j of the adjacency: column j of chunk s. -/
def col (s : Fin 4) (j : Fin 2048) : Fin 8192 :=
  ⟨2048 * s.val + j.val, by have := s.isLt; have := j.isLt; omega⟩

/-- The column a point of chunk s reads at j is column j of chunk s. -/
theorem adjCol_eq (t : Fin cfg0.N) (s : Fin 4) (hs : t.val % 4 = s.val) (j : Fin 2048) : adjCol t j = col s j :=
  Fin.ext (by show 2048 * (t.val % 4) + j.val = 2048 * s.val + j.val; rw [hs])

/-- Two points of one row block read the same adjacency rows. -/
theorem adjRow_eq (t t' : Fin cfg0.N) (h : t'.val / 4 = t.val / 4) (r : Fin 1024) : adjRow t' r = adjRow t r :=
  Fin.ext (by show 1024 * (t'.val / 4) + r.val = 1024 * (t.val / 4) + r.val; rw [h])

/-- Chunk s of the aggregation's sum for adjacency row `row` and feature column o. -/
def tile (c : Dev nD) (row : Fin 8192) (o : Fin 256) (s : Fin 4) : Ideal .f32 :=
  ∑ j : Fin 2048, argAdj m c (ix3 (0 : Fin 1) row (col s j)) * Cert.Spec.fts (argSeq m c) (argW m c) (col s j) o

/-! ## One chunk's product -/

/-- A kept feature entry of any point: row 2048 (t mod 4) + j of seq against row o of the weights. The chunk is the one
    computed at the first row block's point t mod 4, whose sequence block is rows [2048 (t mod 4), 2048 (t mod 4) + 2048). -/
theorem fts_chunk (c : Dev nD) (t : Fin cfg0.N) (j : Fin 2048) (o : Fin 256) :
    ftsAt m c t (ix2 j o) = Cert.Spec.fts (argSeq m c) (argW m c) (adjCol t j) o := by
  have hlt : (chunkPt t).val < 4 := by rw [chunkPt_val]; omega
  have hrow : seqRow (chunkPt t) hlt j = adjCol t j := Fin.ext rfl
  unfold ftsAt ftsC Cert.Spec.fts
  rw [pay1_apply]
  refine Finset.sum_congr rfl fun f _ => ?_
  rw [seqB_apply m c (chunkPt t) hlt j f, wB_apply, hrow]

/-- The product of the adjacency block of a point of chunk s with its kept chunk, at (r, o): chunk s of the
    aggregation's sum for the point's adjacency row. -/
theorem part (c : Dev nD) (t : Fin cfg0.N) (s : Fin 4) (hs : t.val % 4 = s.val) (r : Fin 1024) (o : Fin 256) :
    ∑ j : Fin 2048, adjB m c t (ix2 r j) * ftsAt m c t (ix2 j o) = tile m c (adjRow t r) o s := by
  unfold tile
  refine Finset.sum_congr rfl fun j _ => ?_
  rw [adjB_apply, fts_chunk, adjCol_eq t s hs j]

/-! ## The accumulator after the first, second and third chunk of a row block -/

theorem acc0 (c : Dev nD) (t : Fin cfg0.N) (h : t.val % 4 = 0) (r : Fin 1024) (o : Fin 256) :
    accAfter m c t.val t.isLt (ix2 r o) = tile m c (adjRow t r) o 0 := by
  rw [accAfter_first m c t h, pay4_apply, pay2_apply, zero_add, part m c t 0 h r o]

theorem acc1 (c : Dev nD) (t : Fin cfg0.N) (h : t.val % 4 = 1) (r : Fin 1024) (o : Fin 256) :
    accAfter m c t.val t.isLt (ix2 r o) = tile m c (adjRow t r) o 0 + tile m c (adjRow t r) o 1 := by
  have hlt : t.val - 1 < cfg0.N := Nat.lt_of_le_of_lt (Nat.sub_le _ _) t.isLt
  have e := acc0 m c ⟨t.val - 1, hlt⟩ (by show (t.val - 1) % 4 = 0; omega) r o
  rw [adjRow_eq t ⟨t.val - 1, hlt⟩ (by show (t.val - 1) / 4 = t.val / 4; omega) r] at e
  rw [accAfter_mid m c t (by omega) (by omega), pay4_apply, part m c t 1 h r o]
  exact congrArg (· + tile m c (adjRow t r) o 1) e

theorem acc2 (c : Dev nD) (t : Fin cfg0.N) (h : t.val % 4 = 2) (r : Fin 1024) (o : Fin 256) :
    accAfter m c t.val t.isLt (ix2 r o)
      = tile m c (adjRow t r) o 0 + tile m c (adjRow t r) o 1 + tile m c (adjRow t r) o 2 := by
  have hlt : t.val - 1 < cfg0.N := Nat.lt_of_le_of_lt (Nat.sub_le _ _) t.isLt
  have e := acc1 m c ⟨t.val - 1, hlt⟩ (by show (t.val - 1) % 4 = 1; omega) r o
  rw [adjRow_eq t ⟨t.val - 1, hlt⟩ (by show (t.val - 1) / 4 = t.val / 4; omega) r] at e
  rw [accAfter_mid m c t (by omega) (by omega), pay4_apply, part m c t 2 h r o]
  exact congrArg (· + tile m c (adjRow t r) o 2) e

/-! ## The four chunks are the whole sum -/

/-- The aggregation's sum over the 8192 columns, chunk by chunk. -/
theorem agg_tiles (c : Dev nD) (row : Fin 8192) (o : Fin 256) :
    Cert.Spec.agg (argSeq m c) (argAdj m c) (argW m c) row o = ∑ s : Fin 4, tile m c row o s := by
  unfold Cert.Spec.agg tile
  exact Cert.SumTiles.sum_tiles 4 2048
    (fun j : Fin 8192 => argAdj m c (ix3 (0 : Fin 1) row j) * Cert.Spec.fts (argSeq m c) (argW m c) j o)

/-- The specification's result at (0, row, o). -/
theorem G_eq (c : Dev nD) (row : Fin 8192) (o : Fin 256) :
    Cert.Spec.G (argSeq m c) (argAdj m c) (argW m c) (argBias m c) (argA m c) (ix3 (0 : Fin 1) row o)
      = Cert.Spec.leaky (argA m c (ix1 (0 : Fin 1)))
          (Cert.Spec.agg (argSeq m c) (argAdj m c) (argW m c) row o + argBias m c (ix1 o)) := rfl

end Closed

theorem outAt_apply (c : Dev nD) (t : Fin cfg0.N) (h3 : t.val % 4 = 3) (r : Fin 1024) (o : Fin 256) :
    outAt m c t (ix2 r o)
      = Cert.Spec.G (argSeq m c) (argAdj m c) (argW m c) (argBias m c) (argA m c) (ix3 (0 : Fin 1) (adjRow t r) o) := by
  have hlt : t.val - 1 < cfg0.N := Nat.lt_of_le_of_lt (Nat.sub_le _ _) t.isLt
  have e := Closed.acc2 m c ⟨t.val - 1, hlt⟩ (by show (t.val - 1) % 4 = 2; omega) r o
  rw [Closed.adjRow_eq t ⟨t.val - 1, hlt⟩ (by show (t.val - 1) / 4 = t.val / 4; omega) r] at e
  unfold outAt
  rw [pay5_apply, Closed.part m c t 3 h3 r o, biasB_apply, aB_apply, Closed.G_eq, Closed.agg_tiles,
    Fin.sum_univ_four]
  exact congrArg
    (fun x => Cert.Spec.leaky (argA m c (ix1 (0 : Fin 1))) ((x + Closed.tile m c (adjRow t r) o 3) + argBias m c (ix1 o))) e

end Cert.KernelIdeal.Val

end
-- ==== Proof.KernelIdealValue.Final.lean ====
/-
  From the output blocks to the result. The output window's block at point t = 4 i + 3 is rows [1024 i, 1024 i + 1024) of
  the region's result array, written back there and at no other point, and the eight blocks cover the array; the host
  line after the region only adds a unit axis. With the closed form of each block, the result is the specification's
  array of the five arguments.
-/
import proofs.«166933_g27788438405845_cont_9to1_712_7_alg».proof.Proof.KernelIdealBody.State
import proofs.«166933_g27788438405845_cont_9to1_712_7_alg».proof.Proof.KernelIdealValue.Closed
import Idealize.ShloMosaic.Lib.Pipeline.Value
import Idealize.ShloMosaic.Lib.ValueLayout
import Idealize.ShloMosaic.Lib.StableHlo.Run

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx Idealize.SL.Sem

open Idealize.ShloMosaic.Pipeline (Dat)

variable (m : (ℓ : Loc nD τ sig) → Buf (Elt Ideal) ℓ) (ρ : Dev nD → PrngReg)

/-- The specification's array with its unit axis dropped: what the region's result array ends holding. -/
def specFlat (c : Dev nD) : S8192x256.Idx → Elt Ideal .f32 :=
  fun y => Cert.Spec.G (argSeq m c) (argAdj m c) (argW m c) (argBias m c) (argA m c) (ix3 (0 : Fin 1) (y 0 : Fin 8192) (y 1 : Fin 256))

/-- The output window's block index at point t: row block t div 4, the one column block. -/
theorem outIndex : ∀ t : Fin cfg0.N, win0_5.index t (0 : Fin 2) = t.val / 4 ∧ win0_5.index t (1 : Fin 2) = 0 :=
  (by decide +kernel : ∀ t : Fin grid0.N, win0_5.index t (0 : Fin 2) = t.val / 4 ∧ win0_5.index t (1 : Fin 2) = 0)

/-- What a last-chunk point writes back is its block of the specification's array: entry (r, o) of the block sits at
    row 1024 (t div 4) + r and column o of the array. -/
theorem outBlock_written (c : Dev nD) (t : Fin cfg0.N) (h3 : t.val % 4 = 3) :
    (dats m 0 c).flushed 5 t = ((cfg0.win 5).blk t).view.read (Elt Ideal) (specFlat m c) := by
  show (cfg0.win 5).cut (grid0.coords t) ((dats m 0 c).after 5 t) = _
  rw [after5]
  funext j
  obtain ⟨e0, e1⟩ := outIndex t
  have hj0 : (j 0).val < 1024 := (j 0).isLt
  have hj1 : (j 1).val < 256 := (j 1).isLt
  show outAt m c t ((cfg0.win 5).xinj (grid0.coords t) j) = specFlat m c (((cfg0.win 5).blk t).view.emb j)
  have ej : (cfg0.win 5).xinj (grid0.coords t) j = ix2 (⟨(j 0).val, hj0⟩ : Fin 1024) (⟨(j 1).val, hj1⟩ : Fin 256) := by
    funext a; match a with | ⟨0, _⟩ => rfl | ⟨1, _⟩ => rfl
  rw [ej, outAt_apply m c t h3]
  unfold specFlat
  refine congrArg (Cert.Spec.G (argSeq m c) (argAdj m c) (argW m c) (argBias m c) (argA m c)) ?_
  funext a
  match a with
  | ⟨0, _⟩ => rfl
  | ⟨1, _⟩ =>
    apply Fin.ext
    show 1024 * (t.val / 4) + (j 0).val = win0_5.index t (0 : Fin 2) * 1024 + 1 * (j 0).val
    omega
  | ⟨2, _⟩ =>
    apply Fin.ext
    show (j 1).val = win0_5.index t (1 : Fin 2) * 256 + 1 * (j 1).val
    omega

/-- An index of the result array is in point t's block iff each coordinate is in the block's range on its axis. -/
theorem mem_outBlock (t : Fin cfg0.N) (i : S8192x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v4).slice (win0_5.rect t)).set ↔ _
  rw [View.set_slice_whole, Rect.mem_set_unit]
  exact Iff.rfl

/-- Every entry of the result array is written back: row p is in the block of the last-chunk point 4 (p div 1024) + 3. -/
theorem outBlocks_cover (i : S8192x256.Idx) :
    ∃ t : Fin cfg0.N, (cfg0.win 5).flush t = true ∧ i ∈ ((cfg0.win 5).blk t).view.set := by
  have hi0 : (i 0).val < 8192 := (i 0).isLt
  have hi1 : (i 1).val < 256 := (i 1).isLt
  have hN : cfg0.N = 32 := N_0
  have hlt : 4 * ((i 0).val / 1024) + 3 < cfg0.N := by omega
  obtain ⟨e0, e1⟩ := outIndex ⟨4 * ((i 0).val / 1024) + 3, hlt⟩
  have e0' : win0_5.index ⟨4 * ((i 0).val / 1024) + 3, hlt⟩ (0 : Fin 2) = (4 * ((i 0).val / 1024) + 3) / 4 := e0
  refine ⟨⟨4 * ((i 0).val / 1024) + 3, hlt⟩, (flush0_5 _).mpr (by show (4 * ((i 0).val / 1024) + 3) % 4 = 3; omega), ?_⟩
  rw [mem_outBlock]
  intro a
  match a with
  | ⟨0, _⟩ =>
    show win0_5.index ⟨4 * ((i 0).val / 1024) + 3, hlt⟩ (0 : Fin 2) * 1024 ≤ (i 0).val
      ∧ (i 0).val < win0_5.index ⟨4 * ((i 0).val / 1024) + 3, hlt⟩ (0 : Fin 2) * 1024 + 1024
    omega
  | ⟨1, _⟩ =>
    show win0_5.index ⟨4 * ((i 0).val / 1024) + 3, hlt⟩ (1 : Fin 2) * 256 ≤ (i 1).val
      ∧ (i 1).val < win0_5.index ⟨4 * ((i 0).val / 1024) + 3, hlt⟩ (1 : Fin 2) * 256 + 256
    omega

/-- The region's result array after the run is the specification's array with its unit axis dropped. -/
theorem resultArray_eq (c : Dev nD) : (dats m 0 c).arrAt 5 cfg0.N = specFlat m c :=
  (dats m 0 c).arrAt_eq_of_cover 5 (specFlat m c) (fun t hf => outBlock_written m c t ((flush0_5 t).mp hf)) outBlocks_cover

/-- The region's result array after the run, entry by entry. -/
theorem out_array (c : Dev nD) (p : Fin 8192) (o : Fin 256) :
    ((dats m 0 c).arrAt 5 cfg0.N : S8192x256.Idx → Elt Ideal .f32) (ix2 p o)
      = Cert.Spec.G (argSeq m c) (argAdj m c) (argW m c) (argBias m c) (argA m c) (ix3 (0 : Fin 1) p o) :=
  congrFun (resultArray_eq m c) (ix2 p o)

/-- The program's result after the host line that follows the region. -/
theorem result_eq (c : Dev nD) :
    Pipeline.afterTail₀ cfgs (dats m) 0 (V0 m) [hostOps1] c main_v5
      = Cert.Spec.G (argSeq m c) (argAdj m c) (argW m c) (argBias m c) (argA m c) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4)
      = specFlat m c :=
    (Pipeline.withArrays_arr spec0 launch0.win.arr_inj c _ _ 5).trans (resultArray_eq m c)
  funext y
  obtain ⟨u, p, o, rfl⟩ : ∃ (u : Fin 1) (p : Fin 8192) (o : Fin 256), y = ix3 u p o := ⟨y 0, y 1, y 2, eq_ix3 y⟩
  have hu : u = 0 := Subsingleton.elim _ _
  subst hu
  show shapeCast (⟨3, ![1, 8192, 256]⟩ : Shape)
      (Pipeline.withArrays (cfgs 0).spec c (V0 m c) (fun w => (dats m 0 c).arrAt w (cfgs 0).N) (Proc.devRef .tc main_v4))
      shapeCasts_S8192x256_S1x8192x256 (ix3 (0 : Fin 1) p o) = _
  refine (shapeCast_ab_1ab_apply _ shapeCasts_S8192x256_S1x8192x256 (0 : Fin 1) p o).trans ?_
  exact congrFun hw (ix2 p o)

end Cert.KernelIdeal.Val

end
-- ==== Proof.KernelIdealValue.Run.lean ====
/-
  The idealized kernel's run: every weakly fair execution terminates without a fault with the program's result at the
  specification's array of the five arguments, and the arguments as launched. From the frame run: the result buffer is
  no array of the pipeline and no scoped buffer, so it ends as the host line after the region leaves it.
-/
import proofs.«166933_g27788438405845_cont_9to1_712_7_alg».proof.Proof.KernelIdealBody.Body
import proofs.«166933_g27788438405845_cont_9to1_712_7_alg».proof.Proof.KernelIdealValue.Final

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx Idealize.SL.Sem

open Idealize.ShloMosaic.Pipeline (Dat)

variable (m : (ℓ : Loc nD τ sig) → Buf (Elt Ideal) ℓ) (ρ : Dev nD → PrngReg)

theorem run : θ_run (defs (F := Ideal)) (onTc (τ := τ) (main (F := Ideal))) ⟨m, fun _ => 0, ρ⟩ (fun r => ∀ c : Dev nD,
      r.2.mem ((c.tc : Thread nD τ).loc main_v5) = Cert.Spec.G (argSeq m c) (argAdj m c) (argW m c) (argBias m c) (argA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (Cert.KernelIdeal.Body.run_main m ρ)

end Cert.KernelIdeal.Val

end
-- ==== Proof.RefValue.lean ====
/-
  The reference at the exact instance computes the specification: its first contraction is the transformed features
  (row n of seq against row o of the weights), its second their aggregation along a row of the adjacency, its two
  broadcasts carry the bias of the column and the one slope to every entry, and its comparison with zero and choice
  are the leaky rectifier.
-/
import proofs.«166933_g27788438405845_cont_9to1_712_7_alg».proof.Proof.Gen.ReferenceIdeal.Read
import proofs.«166933_g27788438405845_cont_9to1_712_7_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-- The reference's last stage is the specification's result array. -/
theorem ref_eq (x0 : (⟨S1x8192x256, .f32⟩ : BufTy).Contents (Elt Ideal)) (x1 : (⟨S1x8192x8192, .f32⟩ : BufTy).Contents (Elt Ideal))
    (x2 : (⟨S256x256, .f32⟩ : BufTy).Contents (Elt Ideal)) (x3 : (⟨S256, .f32⟩ : BufTy).Contents (Elt Ideal))
    (x4 : (⟨S1, .f32⟩ : BufTy).Contents (Elt Ideal)) :
    val_main_v10 (F := Ideal) x0 x1 x2 x3 x4 = Cert.Spec.G x0 x1 x2 x3 x4 := by
  -- compare entry by entry; an index is (0, b, c) with b a node and c an output feature
  funext i
  obtain ⟨a, b, c, rfl⟩ : ∃ (a : Fin 1) (b : Fin 8192) (c : Fin 256), i = ix3 a b c := ⟨i 0, i 1, i 2, eq_ix3 i⟩
  obtain rfl : a = 0 := Subsingleton.elim _ _
  -- the composed index maps of the reference's stages, as coordinates: the slope is read at its one entry, the
  -- bias at column c, the adjacency at (0, b, k) against the features at (0, k, c), and those read seq at (0, k, f)
  -- against the weights at (c, f)
  have e8 : idx_main_v7 (idx_main_v8 (ix3 (0 : Fin 1) b c)) = ix1 (0 : Fin 1) :=
    funext fun d => Fin.ext (by match d with | ⟨0, _⟩ => rfl)
  have e3 : idx_main_v2 (idx_main_v3 (ix3 (0 : Fin 1) b c)) = ix1 c :=
    funext fun d => Fin.ext (by match d with | ⟨0, _⟩ => rfl)
  have el1 : ∀ k : Fin 8192, lidx_main_v1 (ix3 (0 : Fin 1) b c) k = ix3 (0 : Fin 1) b k := fun k =>
    funext fun d => Fin.ext (by match d with | ⟨0, _⟩ => rfl | ⟨1, _⟩ => rfl | ⟨2, _⟩ => rfl)
  have er1 : ∀ k : Fin 8192, ridx_main_v1 (ix3 (0 : Fin 1) b c) k = ix3 (0 : Fin 1) k c := fun k =>
    funext fun d => Fin.ext (by match d with | ⟨0, _⟩ => rfl | ⟨1, _⟩ => rfl | ⟨2, _⟩ => rfl)
  have el0 : ∀ (k : Fin 8192) (f : Fin 256), lidx_main_v0 (ix3 (0 : Fin 1) k c) f = ix3 (0 : Fin 1) k f := fun k f =>
    funext fun d => Fin.ext (by match d with | ⟨0, _⟩ => rfl | ⟨1, _⟩ => rfl | ⟨2, _⟩ => rfl)
  have er0 : ∀ (k : Fin 8192) (f : Fin 256), ridx_main_v0 (ix3 (0 : Fin 1) k c) f = ix2 c f := fun k f =>
    funext fun d => Fin.ext (by match d with | ⟨0, _⟩ => rfl | ⟨1, _⟩ => rfl)
  -- read every stage at the index, outermost first
  rw [val_main_v10_apply, val_main_v6_apply, val_main_v9_apply, val_main_v4_apply, val_main_v5_apply,
    val_main_cst_apply, val_main_v8_apply, val_main_v7_apply, val_main_v3_apply, val_main_v2_apply,
    val_main_v1_apply, e8, e3]
  simp only [el1, er1, val_main_v0_apply, el0, er0]
  -- both sides are now the same choice between the biased aggregate and its multiple by the slope
  rfl

end Cert.ReferenceIdeal.RefValue

end
-- ==== Proof.lean ====
/-
  The certificate of a fused graph-convolution layer, out = leaky_relu (adj · (seq · Wᵀ) + bias), computed by one kernel
  on a grid of 8 row blocks by 4 column chunks, against its plain reference.
  The kernel computes the transformed features chunk by chunk on the first row block and keeps them in a scratch
  buffer; at every point it multiplies a block of the adjacency by the kept chunk and accumulates in a second scratch
  buffer, and on the last chunk adds the bias, applies the leaky rectifier and writes the output block. The reference
  contracts whole. At the exact instance the two agree entry by entry: the four chunk sums of a row are one sum over
  the 8192 columns, which needs only that addition of extended reals is commutative and associative, so the
  precondition (finite inputs) is never opened.
  The three frames: the kernel's, as printed and idealized, by the body's run at each of its six control cases under
  an invariant that tracks the kept features band by band and the accumulator; the reference's by its run. The ideal
  pass rewrote nothing, so `preserves` is trivial.
-/
import proofs.«166933_g27788438405845_cont_9to1_712_7_alg».proof.Defs
import proofs.«166933_g27788438405845_cont_9to1_712_7_alg».proof.Proof.Gen.Kernel
import proofs.«166933_g27788438405845_cont_9to1_712_7_alg».proof.Proof.Gen.KernelIdeal
import proofs.«166933_g27788438405845_cont_9to1_712_7_alg».proof.Proof.Gen.ReferenceIdeal
import proofs.«166933_g27788438405845_cont_9to1_712_7_alg».proof.Proof.Gen.ReferenceIdeal.Run
import proofs.«166933_g27788438405845_cont_9to1_712_7_alg».proof.Proof.Gen.ReferenceIdeal.Read
import proofs.«166933_g27788438405845_cont_9to1_712_7_alg».proof.Proof.Gen.Pre_finite_inputs
import proofs.«166933_g27788438405845_cont_9to1_712_7_alg».proof.Proof.KernelBody.Body
import proofs.«166933_g27788438405845_cont_9to1_712_7_alg».proof.Proof.KernelIdealBody.Body
import proofs.«166933_g27788438405845_cont_9to1_712_7_alg».proof.Proof.KernelIdealValue.Run
import proofs.«166933_g27788438405845_cont_9to1_712_7_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the specification's array of the (agreeing) arguments. -/
theorem algebraic : Cert.algebraic_KernelIdeal_ReferenceIdeal := by
  intro m ρ m' ρ' _ hagree
  refine ⟨fun c => Cert.Spec.G (Cert.KernelIdeal.Val.argSeq m c) (Cert.KernelIdeal.Val.argAdj m c) (Cert.KernelIdeal.Val.argW m c)
    (Cert.KernelIdeal.Val.argBias m c) (Cert.KernelIdeal.Val.argA m c), Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
